-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x1 .f32) (main_arg9 : FVec F S1 .f32) (main_arg10 : FVec F S128x1 .f32) (main_arg11 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 78
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S_, .f32⟩
  | .hbm, ⟨62, _⟩ => ⟨S128x128, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S_, .i32⟩
  | .hbm, ⟨67, _⟩ => ⟨S_, .f32⟩
  | .hbm, ⟨68, _⟩ => ⟨S128x128, .f32⟩
  | .hbm, ⟨69, _⟩ => ⟨S_, .i32⟩
  | .hbm, ⟨70, _⟩ => ⟨S_, .f32⟩
  | .hbm, ⟨71, _⟩ => ⟨S128, .f32⟩
  | .hbm, ⟨72, _⟩ => ⟨S100000x128, .f32⟩
  | .hbm, ⟨73, _⟩ => ⟨S100000x128, .f32⟩
  | .hbm, ⟨74, _⟩ => ⟨S100000x1, .f32⟩
  | .hbm, ⟨75, _⟩ => ⟨S100000x1, .f32⟩
  | .hbm, ⟨76, _⟩ => ⟨S100000x1, .f32⟩
  | .hbm, ⟨77, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_call0_v0 : Ref sig .tc := ⟨.hbm, 61, rfl⟩
abbrev main_v38 : Ref sig .tc := ⟨.hbm, 62, rfl⟩
abbrev main_c_9 : Ref sig .tc := ⟨.hbm, 63, rfl⟩
abbrev main_call1_v0 : Ref sig .tc := ⟨.hbm, 64, rfl⟩
abbrev main_v39 : Ref sig .tc := ⟨.hbm, 65, rfl⟩
abbrev main_c_10 : Ref sig .tc := ⟨.hbm, 66, rfl⟩
abbrev main_call2_v0 : Ref sig .tc := ⟨.hbm, 67, rfl⟩
abbrev main_v40 : Ref sig .tc := ⟨.hbm, 68, rfl⟩
abbrev main_c_11 : Ref sig .tc := ⟨.hbm, 69, rfl⟩
abbrev main_call3_v0 : Ref sig .tc := ⟨.hbm, 70, rfl⟩
abbrev main_v41 : Ref sig .tc := ⟨.hbm, 71, rfl⟩
abbrev main_v42_0 : Ref sig .tc := ⟨.hbm, 72, rfl⟩
abbrev main_v42_1 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  shapeCasts_S128x128_S128x128 : S128x128.ShapeCasts S128x128
  shapeCasts_S128_S128 : S128.ShapeCasts S128
  slices_S100000x128_S100000x1_0_0 : S100000x128.Slices ![0, 0] S100000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42_0) S5000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v42_1) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S1x1, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S_, .f32⟩
  | .hbm, ⟨98, _⟩ => ⟨S100000x1, .f32⟩
  | .hbm, ⟨99, _⟩ => ⟨S100000x1, .f32⟩
  | .hbm, ⟨100, _⟩ => ⟨S100000x1, .f32⟩
  | .hbm, ⟨101, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The mathematics of the two-layer mean-aggregation graph network, stated once over whole arrays and read index by index.

  A dense stage takes a node array `a` of aggregated neighbour features and the node array `x` of the nodes' own
  features, two square weight matrices and a bias row, and gives at node `r`, feature `q`
      max ((Σ_k a[r,k]·Wl[k,q] + Σ_k x[r,k]·Wr[k,q]) + b[q]) 0.
  A head is one more matrix product plus a bias row; a gate is the logistic function of a head.
  Two laws join the two programs' spellings of the same numbers: the three summands of a dense stage may be taken in
  either order (addition of extended reals is commutative and associative), and a product with the reciprocal of a
  count clamped from below by one is the quotient by that clamped count (the divisor is at least one, so it is not
  zero, and division off zero IS the product with the inverse — at infinite values too).
-/
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- Node features: 100000 nodes, 128 features each. -/
abbrev Nodes : Shape := ⟨2, ![100000, 128]⟩
/-- A square weight matrix. -/
abbrev Sq : Shape := ⟨2, ![128, 128]⟩
/-- A bias row. -/
abbrev Row : Shape := ⟨1, ![128]⟩

/-- The f32 zero word as an extended real; both programs clamp against this same word, so it is never evaluated. -/
abbrev Z : EReal := Ideal.ofBits .f32 0x00000000#32

/-- One dense stage at node `r`, feature `q`: the aggregated features through `Wl`, the node's own through `Wr`, the
    bias, clamped below at zero. -/
def denseAt (a x : FVec Ideal Nodes .f32) (Wl Wr : FVec Ideal Sq .f32) (b : FVec Ideal Row .f32)
    (r : Fin 100000) (q : Fin 128) : EReal :=
  max ((∑ k : Fin 128, a (ix2 r k) * Wl (ix2 k q) + ∑ k : Fin 128, x (ix2 r k) * Wr (ix2 k q)) + b (ix1 q)) Z

/-- The dense stage as a whole array. -/
def dense (a x : FVec Ideal Nodes .f32) (Wl Wr : FVec Ideal Sq .f32) (b : FVec Ideal Row .f32) : FVec Ideal Nodes .f32 :=
  fun i => denseAt a x Wl Wr b (i 0) (i 1)

theorem dense_ix2 (a x : FVec Ideal Nodes .f32) (Wl Wr : FVec Ideal Sq .f32) (b : FVec Ideal Row .f32)
    (r : Fin 100000) (q : Fin 128) : dense a x Wl Wr b (ix2 r q) = denseAt a x Wl Wr b r q := rfl

/-- A head at node `r`, column `q`: one matrix product and a bias. -/
def headAt (h : FVec Ideal Nodes .f32) (W : FVec Ideal Sq .f32) (bb : FVec Ideal Row .f32)
    (r : Fin 100000) (q : Fin 128) : EReal :=
  ∑ k : Fin 128, h (ix2 r k) * W (ix2 k q) + bb (ix1 q)

/-- The head as a whole array. -/
def head (h : FVec Ideal Nodes .f32) (W : FVec Ideal Sq .f32) (bb : FVec Ideal Row .f32) : FVec Ideal Nodes .f32 :=
  fun i => headAt h W bb (i 0) (i 1)

theorem head_ix2 (h : FVec Ideal Nodes .f32) (W : FVec Ideal Sq .f32) (bb : FVec Ideal Row .f32)
    (r : Fin 100000) (q : Fin 128) : head h W bb (ix2 r q) = headAt h W bb r q := rfl

/-- The gate: the logistic function of a head. -/
def gate (h : FVec Ideal Nodes .f32) (W : FVec Ideal Sq .f32) (bb : FVec Ideal Row .f32) : FVec Ideal Nodes .f32 :=
  fun i => Ideal.logistic (headAt h W bb (i 0) (i 1))

theorem gate_ix2 (h : FVec Ideal Nodes .f32) (W : FVec Ideal Sq .f32) (bb : FVec Ideal Row .f32)
    (r : Fin 100000) (q : Fin 128) : gate h W bb (ix2 r q) = Ideal.logistic (headAt h W bb r q) := rfl

/-- A one-column weight. -/
abbrev Col : Shape := ⟨2, ![128, 1]⟩
/-- A one-entry bias. -/
abbrev One : Shape := ⟨1, ![1]⟩
/-- One value per node. -/
abbrev PerNode : Shape := ⟨2, ![100000, 1]⟩

/-- A prediction at node `r`: the node's features against a one-column weight, plus the one bias. -/
def predAt (h : FVec Ideal Nodes .f32) (W : FVec Ideal Col .f32) (b : FVec Ideal One .f32) (r : Fin 100000) : EReal :=
  ∑ k : Fin 128, h (ix2 r k) * W (ix2 k (0 : Fin 1)) + b (ix1 (0 : Fin 1))

/-- The first result: the prediction minus the gated difficulty, per node. -/
def outSub (h : FVec Ideal Nodes .f32) (Wp : FVec Ideal Col .f32) (bp : FVec Ideal One .f32)
    (Wd : FVec Ideal Col .f32) (bd : FVec Ideal One .f32) : FVec Ideal PerNode .f32 :=
  fun i => predAt h Wp bp (i 0) - Ideal.logistic (predAt h Wd bd (i 0))

/-- The second result: the prediction plus the gated difficulty, per node. -/
def outAdd (h : FVec Ideal Nodes .f32) (Wp : FVec Ideal Col .f32) (bp : FVec Ideal One .f32)
    (Wd : FVec Ideal Col .f32) (bd : FVec Ideal One .f32) : FVec Ideal PerNode .f32 :=
  fun i => predAt h Wp bp (i 0) + Ideal.logistic (predAt h Wd bd (i 0))

/-- The three summands of a dense stage in the other order: (s₁ + b) + s₂ = (s₁ + s₂) + b. -/
theorem add_bias_mid (s₁ s₂ b : EReal) : (s₁ + b) + s₂ = (s₁ + s₂) + b := add_right_comm s₁ b s₂

/-- A count clamped from below by one is not zero. -/
theorem max_one_ne_zero (c : EReal) : max c 1 ≠ 0 :=
  ne_of_gt (lt_of_lt_of_le zero_lt_one (le_max_right c 1))

/-- The mean of a neighbourhood, two ways: the sum times the reciprocal of the clamped count is the sum divided by the
    clamped count, at every extended real `a` and `c`. -/
theorem mul_recip_clamped (a c : EReal) : a * Ideal.div 1 (max c 1) = Ideal.div a (max c 1) := by
  unfold Ideal.div
  rw [if_neg (max_one_ne_zero c), if_neg (max_one_ne_zero c), one_mul]

end Cert.Sage

end
-- ==== Proof.Region0.lean ====
/-
  The first dense stage, read off the pipeline: what the 20 row blocks of 5000 nodes leave in the result array is, node
  by node and feature by feature, the dense stage of the two node arrays, the two weight matrices and the bias row the
  region was entered with.
-/
import proofs.«159413_j55602646614393_1_alg».proof.Proof.Gen.KernelIdeal.Frame
import proofs.«159413_j55602646614393_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## One block product at an index

The block product contracts the left operand's columns against the right operand's rows: at output index (p, q) and
contraction position k the left operand is read at (p, k) and the right one at (k, q). -/

/-- The left operand's row coordinate is the output's row. -/
private theorem lhs_row (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction position. -/
private theorem lhs_col (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
/-- The right operand's row coordinate is the contraction position. -/
private theorem rhs_row (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
/-- The right operand's column coordinate is the output's column. -/
private theorem rhs_col (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at (p, q): the sum over the 128 contraction positions of the products. -/
private theorem prod_at {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The stored value at an index -/

/-- What the body stores at row p, feature q of its block: the two block products added, the bias entry q added to
    that, and the result clamped below by the zero word. The narrowing of the operands is the identity on extended
    reals, the cast of a block to its own shape is the identity, and the bias reaches every row through a unit axis. -/
private theorem pay_at (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q))
          (Ideal.ofBits .f32 0x00000000#32) := by
  unfold k0_pay1
  rw [maximumf_apply, addf_apply, addf_apply, prod_at, prod_at, broadcastTo_1b_ab_apply, shapeCast_a_1a_apply,
    shapeCast_self]
  rfl

/-! ## From blocks to the array

Point t of the grid stages rows 5000·t … 5000·t + 4999 of the two node arrays and of the result, and the whole of the
two weight matrices and of the bias row: an element of a block sits in its array at block index × block size + its
coordinate inside the block, on every axis. -/

private theorem origin2 : (![0, 0] : Fin 2 → Nat) = fun _ => 0 := funext fun a => by fin_cases a <;> rfl
private theorem origin1 : (![0] : Fin 1 → Nat) = fun _ => 0 := funext fun a => by fin_cases a <;> rfl

/-- The block indices, decided once over the 20 points: the node arrays and the result move down the rows with the
    point and stay at column block 0; the weights and the bias stay at block 0 throughout. -/
private theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the block at point t is row 5000·t + p of the array. -/
private def rowOf (t : Fin cfg0.N) (p : Fin 5000) : Fin 100000 :=
  ⟨t.val * 5000 + p.val, by have := lt_of_lt_of_eq t.isLt N_0; omega⟩

variable (V : (c : Dev nD) → (b : Ref sig .tc) → Buf (Elt Ideal) ((c : Thread nD τ).loc b))

/-- The aggregated-features block at point t, read at (p, k), is the array at (5000·t + p, k). -/
private theorem blk_agg (c : Dev nD) (t : Fin cfg0.N) (p : Fin 5000) (k : Fin 128) :
    iblk0 V c 0 t (ix2 p k) = V c main_v24 (ix2 (rowOf t p) k) := by
  obtain ⟨e0, e1, -⟩ := block_indices t
  show V c main_v24 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The own-features block at point t, read at (p, k), is the array at (5000·t + p, k). -/
private theorem blk_own (c : Dev nD) (t : Fin cfg0.N) (p : Fin 5000) (k : Fin 128) :
    iblk0 V c 1 t (ix2 p k) = V c main_arg0 (ix2 (rowOf t p) k) := by
  obtain ⟨-, -, e0, e1, -⟩ := block_indices t
  show V c main_arg0 (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix is staged whole at every point. -/
private theorem blk_wl (c : Dev nD) (t : Fin cfg0.N) (k q : Fin 128) :
    iblk0 V c 2 t (ix2 k q) = V c main_arg2 (ix2 k q) := by
  obtain ⟨-, -, -, -, e0, e1, -⟩ := block_indices t
  show V c main_arg2 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight matrix is staged whole at every point. -/
private theorem blk_wr (c : Dev nD) (t : Fin cfg0.N) (k q : Fin 128) :
    iblk0 V c 3 t (ix2 k q) = V c main_arg3 (ix2 k q) := by
  obtain ⟨-, -, -, -, -, -, e0, e1, -⟩ := block_indices t
  show V c main_arg3 (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row is staged whole at every point. -/
private theorem blk_bias (c : Dev nD) (t : Fin cfg0.N) (q : Fin 128) :
    iblk0 V c 4 t (ix1 q) = V c main_arg4 (ix1 q) := by
  obtain ⟨-, -, -, -, -, -, -, -, e0, -⟩ := block_indices t
  show V c main_arg4 (((cfg0.win 4).blk t).view.emb (ix1 q)) = _
  refine congrArg _ (funext fun a => Fin.ext ?_)
  match a with
  | ⟨0, _⟩ => show win0_4.index t (0 : Fin 1) * 128 + 1 * q.val = q.val; omega

/-- Element (p, q) of the result's block at point t sits at (5000·t + p, q) of the result array. -/
private theorem emb_out (t : Fin cfg0.N) (p : Fin 5000) (q : Fin 128) :
    ((cfg0.win 5).blk t).view.emb (ix2 p q) = ix2 (rowOf t p) q := by
  obtain ⟨-, -, -, -, -, -, -, -, -, e0, e1⟩ := block_indices t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- WHAT POINT t WRITES BACK is block t of the dense stage of the arrays the region was entered with: the stored value
    at (p, q) is the dense stage's formula over the staged blocks, and each staged block is its array read where the
    result's block sits. -/
private theorem flushed_eq (c : Dev nD) (t : Fin cfg0.N) :
    (dat0 (F := Ideal) V c).flushed 5 t = ((cfg0.win 5).blk t).view.read (Elt Ideal)
      (Cert.Sage.dense (V c main_v24) (V c main_arg0) (V c main_arg2) (V c main_arg3) (V c main_arg4)) := by
  show (cfg0.win 5).cut (grid0.coords t) ((dat0 (F := Ideal) V c).after 5 t) = _
  rw [after0_5]
  unfold out0_5
  rw [View.canon_unit_zero origin2]
  simp only [View.ld_unit_zero (S := S5000x128) origin2, View.ld_unit_zero (S := S128x128) origin2,
    View.ld_unit_zero (S := S128) origin1]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Sage.dense (V c main_v24) (V c main_arg0) (V c main_arg2) (V c main_arg3) (V c main_arg4)
        (((cfg0.win 5).blk t).view.emb (ix2 p q))
  rw [emb_out, Cert.Sage.dense_ix2, pay_at]
  unfold Cert.Sage.denseAt
  simp only [blk_agg, blk_own, blk_wl, blk_wr, blk_bias]

/-- An index of the result array is in point t's block iff each coordinate is in the block's range on its axis. -/
private theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Every index of the result array is in some point's block: row r is in the block of point r / 5000. -/
private theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := lt_of_lt_of_eq (by omega : (i 0).val / 5000 < 20) N_0.symm
  obtain ⟨-, -, -, -, -, -, -, -, -, e0, e1⟩ := block_indices ⟨(i 0).val / 5000, ht⟩
  have q0 : win0_5.index ⟨(i 0).val / 5000, ht⟩ (0 : Fin 2) = (i 0).val / 5000 := e0
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- After the region's 20 grid points its result array is the dense stage of the arrays it was entered with. -/
theorem final (c : Dev nD) :
    (dat0 (F := Ideal) V c).arrAt 5 cfg0.N
      = Cert.Sage.dense (V c main_v24) (V c main_arg0) (V c main_arg2) (V c main_arg3) (V c main_arg4) :=
  (dat0 (F := Ideal) V c).arrAt_eq_of_cover 5 _ (fun t _ => flushed_eq V c t) cover

end Cert.KernelIdeal.Layer1

end
-- ==== Proof.Region1.lean ====
/-
  The second dense stage with its two heads, read off the pipeline: the first result array is a head of the dense
  stage, the second the logistic gate of another head of the same dense stage, node by node and column by column.
-/
import proofs.«159413_j55602646614393_1_alg».proof.Proof.Gen.KernelIdeal.Frame
import proofs.«159413_j55602646614393_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One block product at an index

The block product contracts the left operand's columns against the right operand's rows; into the zero accumulator
its entry (p, q) is the sum over k of l[p,k]·r[k,q]. -/

/-- The left operand's row is the output's row. -/
private theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
private theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate. -/
private theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
private theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, entry (p, q): Σ_k l[p,k]·r[k,q]. -/
private theorem blockProduct_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's three values at an index -/

/-- The dense stage of the block, entry (p, q): the two block products, the bias of column q, clamped below at the zero
    word (the narrowing to bf16 is the identity on extended reals). -/
private theorem blockDense_apply (x0 x1 : Vec Ideal S5000x128 .f32) (x2 x3 : Vec Ideal S128x128 .f32) (x4 : Vec Ideal S128 .f32)
    (p : Fin 5000) (q : Fin 128) :
    k1_pay1 x0 x1 x2 x3 x4 (ix2 p q)
      = max ((∑ k : Fin 128, x0 (ix2 p k) * x2 (ix2 k q) + ∑ k : Fin 128, x1 (ix2 p k) * x3 (ix2 k q)) + x4 (ix1 q))
          (Ideal.ofBits .f32 0x00000000#32) := by
  unfold k1_pay1
  simp only [shapeCast_self]
  rw [truncf_apply, maximumf_apply, addf_apply, addf_apply, blockProduct_apply, blockProduct_apply,
    broadcastTo_1b_ab_apply, shapeCast_a_1a_apply, broadcast_apply]
  rfl

/-- The first stored value, entry (p, q): the block's dense stage through the head weight, plus the head bias of column q. -/
private theorem blockHead_apply (x0 x1 : Vec Ideal S5000x128 .f32) (x2 x3 : Vec Ideal S128x128 .f32) (x4 : Vec Ideal S128 .f32)
    (x5 : Vec Ideal S128x128 .f32) (x6 : Vec Ideal S128 .f32) (p : Fin 5000) (q : Fin 128) :
    k1_pay2 x0 x1 x2 x3 x4 x5 x6 (ix2 p q)
      = ∑ k : Fin 128, k1_pay1 x0 x1 x2 x3 x4 (ix2 p k) * x5 (ix2 k q) + x6 (ix1 q) := by
  unfold k1_pay2
  simp only [shapeCast_self]
  rw [addf_apply, blockProduct_apply, broadcastTo_1b_ab_apply, shapeCast_a_1a_apply]
  rfl

/-- The second stored value, entry (p, q): the logistic function of the same form through the second weight and bias. -/
private theorem blockGate_apply (x0 x1 : Vec Ideal S5000x128 .f32) (x2 x3 : Vec Ideal S128x128 .f32) (x4 : Vec Ideal S128 .f32)
    (x7 : Vec Ideal S128x128 .f32) (x8 : Vec Ideal S128 .f32) (p : Fin 5000) (q : Fin 128) :
    k1_pay3 x0 x1 x2 x3 x4 x7 x8 (ix2 p q)
      = Ideal.logistic (∑ k : Fin 128, k1_pay1 x0 x1 x2 x3 x4 (ix2 p k) * x7 (ix2 k q) + x8 (ix1 q)) := by
  unfold k1_pay3
  simp only [shapeCast_self]
  show Ideal.logistic _ = _
  congr 1
  rw [addf_apply, blockProduct_apply, broadcastTo_1b_ab_apply, shapeCast_a_1a_apply]
  rfl

/-! ## The blocks, read off the arrays

At grid point t the two node windows and the two result windows sit at block row t, block column 0: rows 5000·t … 5000·t+4999,
all 128 columns. The five weight and bias windows of the dense stage and the four of the heads sit at block 0 on every
axis: the whole array. An element of a block lies in its array at block index × block size + its own coordinate. -/

private theorem origin2 : (![0, 0] : Fin 2 → Nat) = fun _ => 0 := funext fun a => by fin_cases a <;> rfl
private theorem origin1 : (![0] : Fin 1 → Nat) = fun _ => 0 := funext fun a => by fin_cases a <;> rfl

/-- The row-block windows' block indices at every grid point: (t, 0). -/
private theorem index_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-- The whole-array windows' block indices at every grid point: 0 on every axis. -/
private theorem index_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0 :=
  (by decide +kernel : ∀ t : Fin grid1.N, _)

/-- The node that row p of the block at grid point t is: 5000·t + p. -/
private def nodeAt (t : Fin cfg1.N) (p : Fin 5000) : Fin 100000 :=
  ⟨5000 * t.val + p.val, by have hN : cfg1.N = 20 := N_1; have := t.isLt; have := p.isLt; omega⟩

/-- Window 0's block at t, entry (p, k), is the aggregated-feature array at (5000·t + p, k). -/
private theorem read_rows0 (c : Dev nD) (t : Fin cfg1.N) (p : Fin 5000) (k : Fin 128) :
    (iblk1 V c 0 t : Vec Ideal S5000x128 .f32) (ix2 p k) = V c main_v37 (ix2 (nodeAt t p) k) := by
  obtain ⟨⟨e0, e1⟩, -⟩ := index_rows t
  show V c main_v37 (((cfg1.win 0).blk t).view.emb (ix2 p k)) = V c main_v37 (ix2 (nodeAt t p) k)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

/-- Window 1's block at t, entry (p, k), is the own-feature array at (5000·t + p, k). -/
private theorem read_rows1 (c : Dev nD) (t : Fin cfg1.N) (p : Fin 5000) (k : Fin 128) :
    (iblk1 V c 1 t : Vec Ideal S5000x128 .f32) (ix2 p k) = V c main_v25 (ix2 (nodeAt t p) k) := by
  obtain ⟨-, ⟨e0, e1⟩, -⟩ := index_rows t
  show V c main_v25 (((cfg1.win 1).blk t).view.emb (ix2 p k)) = V c main_v25 (ix2 (nodeAt t p) k)
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

/-- Window 2's block at any point is the whole weight of the aggregated features, entry by entry. -/
private theorem read_whole2 (c : Dev nD) (t : Fin cfg1.N) (k q : Fin 128) :
    (iblk1 V c 2 t : Vec Ideal S128x128 .f32) (ix2 k q) = V c main_arg5 (ix2 k q) := by
  obtain ⟨⟨e0, e1⟩, -⟩ := index_whole t
  show V c main_arg5 (((cfg1.win 2).blk t).view.emb (ix2 k q)) = V c main_arg5 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Window 3's block at any point is the whole weight of the own features, entry by entry. -/
private theorem read_whole3 (c : Dev nD) (t : Fin cfg1.N) (k q : Fin 128) :
    (iblk1 V c 3 t : Vec Ideal S128x128 .f32) (ix2 k q) = V c main_arg6 (ix2 k q) := by
  obtain ⟨-, ⟨e0, e1⟩, -⟩ := index_whole t
  show V c main_arg6 (((cfg1.win 3).blk t).view.emb (ix2 k q)) = V c main_arg6 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Window 4's block at any point is the whole bias row of the dense stage, entry by entry. -/
private theorem read_whole4 (c : Dev nD) (t : Fin cfg1.N) (q : Fin 128) :
    (iblk1 V c 4 t : Vec Ideal S128 .f32) (ix1 q) = V c main_arg7 (ix1 q) := by
  obtain ⟨-, -, e0, -⟩ := index_whole t
  show V c main_arg7 (((cfg1.win 4).blk t).view.emb (ix1 q)) = V c main_arg7 (ix1 q)
  refine congrArg _ (funext fun a => Fin.ext ?_)
  match a with
  | ⟨0, _⟩ => show win1_4.index t (0 : Fin 1) * 128 + 1 * q.val = q.val; omega

/-- Window 5's block at any point is the whole first head weight, entry by entry. -/
private theorem read_whole5 (c : Dev nD) (t : Fin cfg1.N) (k q : Fin 128) :
    (iblk1 V c 5 t : Vec Ideal S128x128 .f32) (ix2 k q) = V c main_v38 (ix2 k q) := by
  obtain ⟨-, -, -, ⟨e0, e1⟩, -⟩ := index_whole t
  show V c main_v38 (((cfg1.win 5).blk t).view.emb (ix2 k q)) = V c main_v38 (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- Window 6's block at any point is the whole first head bias, entry by entry. -/
private theorem read_whole6 (c : Dev nD) (t : Fin cfg1.N) (q : Fin 128) :
    (iblk1 V c 6 t : Vec Ideal S128 .f32) (ix1 q) = V c main_v39 (ix1 q) := by
  obtain ⟨-, -, -, -, e0, -⟩ := index_whole t
  show V c main_v39 (((cfg1.win 6).blk t).view.emb (ix1 q)) = V c main_v39 (ix1 q)
  refine congrArg _ (funext fun a => Fin.ext ?_)
  match a with
  | ⟨0, _⟩ => show win1_6.index t (0 : Fin 1) * 128 + 1 * q.val = q.val; omega

/-- Window 7's block at any point is the whole second head weight, entry by entry. -/
private theorem read_whole7 (c : Dev nD) (t : Fin cfg1.N) (k q : Fin 128) :
    (iblk1 V c 7 t : Vec Ideal S128x128 .f32) (ix2 k q) = V c main_v40 (ix2 k q) := by
  obtain ⟨-, -, -, -, -, ⟨e0, e1⟩, -⟩ := index_whole t
  show V c main_v40 (((cfg1.win 7).blk t).view.emb (ix2 k q)) = V c main_v40 (ix2 k q)
  refine congrArg _ (funext fun a => Fin.ext ?_)
  match a with
  | ⟨0, _⟩ => show win1_7.index t (0 : Fin 2) * 128 + 1 * k.val = k.val; omega
  | ⟨1, _⟩ => show win1_7.index t (1 : Fin 2) * 128 + 1 * q.val = q.val; omega

/-- Window 8's block at any point is the whole second head bias, entry by entry. -/
private theorem read_whole8 (c : Dev nD) (t : Fin cfg1.N) (q : Fin 128) :
    (iblk1 V c 8 t : Vec Ideal S128 .f32) (ix1 q) = V c main_v41 (ix1 q) := by
  obtain ⟨-, -, -, -, -, -, e0⟩ := index_whole t
  show V c main_v41 (((cfg1.win 8).blk t).view.emb (ix1 q)) = V c main_v41 (ix1 q)
  refine congrArg _ (funext fun a => Fin.ext ?_)
  match a with
  | ⟨0, _⟩ => show win1_8.index t (0 : Fin 1) * 128 + 1 * q.val = q.val; omega

/-! ## A block of rows of the dense stage and of its heads

Over any arrays: when the two node blocks are rows `node p` of the node arrays and the weight and bias blocks are the
whole weights and biases, the body's values at (p, q) are the specification's at (node p, q). -/

section Block
variable (a x : FVec Ideal Cert.Sage.Nodes .f32) (Wl Wr : FVec Ideal Cert.Sage.Sq .f32) (b : FVec Ideal Cert.Sage.Row .f32)
  (x0 x1 : Vec Ideal S5000x128 .f32) (x2 x3 : Vec Ideal S128x128 .f32) (x4 : Vec Ideal S128 .f32)
  (node : Fin 5000 → Fin 100000)
  (h0 : ∀ p k, x0 (ix2 p k) = a (ix2 (node p) k)) (h1 : ∀ p k, x1 (ix2 p k) = x (ix2 (node p) k))
  (h2 : ∀ k q, x2 (ix2 k q) = Wl (ix2 k q)) (h3 : ∀ k q, x3 (ix2 k q) = Wr (ix2 k q)) (h4 : ∀ q, x4 (ix1 q) = b (ix1 q))

include h0 h1 h2 h3 h4 in
/-- The block's dense stage at (p, q) is the dense stage at (node p, q). -/
private theorem blockDense_eq (p : Fin 5000) (q : Fin 128) :
    k1_pay1 x0 x1 x2 x3 x4 (ix2 p q) = Cert.Sage.denseAt a x Wl Wr b (node p) q := by
  rw [blockDense_apply, h4]
  unfold Cert.Sage.denseAt
  simp only [h0, h1, h2, h3]

include h0 h1 h2 h3 h4 in
/-- The first stored value at (p, q) is the head at (node p, q). -/
private theorem blockHead_eq (W : FVec Ideal Cert.Sage.Sq .f32) (bb : FVec Ideal Cert.Sage.Row .f32)
    (x5 : Vec Ideal S128x128 .f32) (x6 : Vec Ideal S128 .f32)
    (h5 : ∀ k q, x5 (ix2 k q) = W (ix2 k q)) (h6 : ∀ q, x6 (ix1 q) = bb (ix1 q)) (p : Fin 5000) (q : Fin 128) :
    k1_pay2 x0 x1 x2 x3 x4 x5 x6 (ix2 p q)
      = Cert.Sage.headAt (Cert.Sage.dense a x Wl Wr b) W bb (node p) q := by
  rw [blockHead_apply, h6]
  unfold Cert.Sage.headAt
  refine congrArg (· + bb (ix1 q)) (Finset.sum_congr rfl fun k _ => ?_)
  rw [h5, Cert.Sage.dense_ix2, blockDense_eq a x Wl Wr b x0 x1 x2 x3 x4 node h0 h1 h2 h3 h4]

include h0 h1 h2 h3 h4 in
/-- The second stored value at (p, q) is the gate at (node p, q). -/
private theorem blockGate_eq (W : FVec Ideal Cert.Sage.Sq .f32) (bb : FVec Ideal Cert.Sage.Row .f32)
    (x7 : Vec Ideal S128x128 .f32) (x8 : Vec Ideal S128 .f32)
    (h7 : ∀ k q, x7 (ix2 k q) = W (ix2 k q)) (h8 : ∀ q, x8 (ix1 q) = bb (ix1 q)) (p : Fin 5000) (q : Fin 128) :
    k1_pay3 x0 x1 x2 x3 x4 x7 x8 (ix2 p q)
      = Ideal.logistic (Cert.Sage.headAt (Cert.Sage.dense a x Wl Wr b) W bb (node p) q) := by
  rw [blockGate_apply, h8]
  unfold Cert.Sage.headAt
  refine congrArg (fun s => Ideal.logistic (s + bb (ix1 q))) (Finset.sum_congr rfl fun k _ => ?_)
  rw [h7, Cert.Sage.dense_ix2, blockDense_eq a x Wl Wr b x0 x1 x2 x3 x4 node h0 h1 h2 h3 h4]

end Block

/-! ## What each grid point writes back, and the arrays after the last point -/

/-- An element (p, q) of result window 9's block at t lies in its array at (5000·t + p, q). -/
private theorem out_emb9 (t : Fin cfg1.N) (p : Fin 5000) (q : Fin 128) :
    ((cfg1.win 9).blk t).view.emb (ix2 p q) = (ix2 (nodeAt t p) q : S100000x128.Idx) := by
  obtain ⟨-, -, ⟨e0, e1⟩, -⟩ := index_rows t
  refine funext fun a => Fin.ext ?_
  match a with
  | ⟨0, _⟩ => show win1_9.index t (0 : Fin 2) * 5000 + 1 * p.val = 5000 * t.val + p.val; omega
  | ⟨1, _⟩ => show win1_9.index t (1 : Fin 2) * 128 + 1 * q.val = q.val; omega

/-- An index of the array is in result window 9's block at t iff each coordinate is in the block's range on its axis. -/
private theorem mem_out9 (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v42_0).slice (win1_9.rect t)).set ↔ _
  rw [View.set_slice_whole, Rect.mem_set_unit]
  exact Iff.rfl

/-- Every node's row is in the block of the grid point node / 5000, which is written back. -/
private theorem cover_out9 (i : S100000x128.Idx) :
    ∃ t : Fin cfg1.N, (cfg1.win 9).flush t = true ∧ i ∈ ((cfg1.win 9).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, ⟨e0, e1⟩, -⟩ := index_rows t
  refine ⟨t, flush1_9 t, ?_⟩
  rw [mem_out9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- An element (p, q) of result window 10's block at t lies in its array at (5000·t + p, q). -/
private theorem out_emb10 (t : Fin cfg1.N) (p : Fin 5000) (q : Fin 128) :
    ((cfg1.win 10).blk t).view.emb (ix2 p q) = (ix2 (nodeAt t p) q : S100000x128.Idx) := by
  obtain ⟨-, -, -, ⟨e0, e1⟩⟩ := index_rows t
  refine funext fun a => Fin.ext ?_
  match a with
  | ⟨0, _⟩ => show win1_10.index t (0 : Fin 2) * 5000 + 1 * p.val = 5000 * t.val + p.val; omega
  | ⟨1, _⟩ => show win1_10.index t (1 : Fin 2) * 128 + 1 * q.val = q.val; omega

/-- An index of the array is in result window 10's block at t iff each coordinate is in the block's range on its axis. -/
private theorem mem_out10 (t : Fin cfg1.N) (i : S100000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v42_1).slice (win1_10.rect t)).set ↔ _
  rw [View.set_slice_whole, Rect.mem_set_unit]
  exact Iff.rfl

/-- Every node's row is in the block of the grid point node / 5000, which is written back. -/
private theorem cover_out10 (i : S100000x128.Idx) :
    ∃ t : Fin cfg1.N, (cfg1.win 10).flush t = true ∧ i ∈ ((cfg1.win 10).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, ⟨e0, e1⟩⟩ := index_rows t
  refine ⟨t, flush1_10 t, ?_⟩
  rw [mem_out10]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 128 ≤ (i 1).val ∧ (i 1).val < win1_10.index t (1 : Fin 2) * 128 + 128; omega

/-- Grid point t writes back, to the first result array, block t of the head of the dense stage. -/
private theorem head_written (c : Dev nD) (t : Fin cfg1.N) :
    (dat1 (F := Ideal) V c).flushed 9 t = ((cfg1.win 9).blk t).view.read (Elt Ideal)
      (Cert.Sage.head (Cert.Sage.dense (V c main_v37) (V c main_v25) (V c main_arg5) (V c main_arg6) (V c main_arg7)) (V c main_v38) (V c main_v39)) := by
  show (cfg1.win 9).cut (grid1.coords t) ((dat1 V c).after 9 t) = _
  rw [after1_9]
  unfold out1_9
  rw [View.canon_unit_zero origin2]
  simp only [View.ld_unit_zero (S := S5000x128) origin2, View.ld_unit_zero (S := S128x128) origin2, View.ld_unit_zero (S := S128) origin1]
  funext j
  obtain ⟨p, q, rfl⟩ : ∃ (p : Fin 5000) (q : Fin 128), j = ix2 p q := ⟨j 0, j 1, eq_ix2 j⟩
  show k1_pay2 (iblk1 V c 0 t) (iblk1 V c 1 t) (iblk1 V c 2 t) (iblk1 V c 3 t) (iblk1 V c 4 t) (iblk1 V c 5 t) (iblk1 V c 6 t) (ix2 p q)
    = (Cert.Sage.head (Cert.Sage.dense (V c main_v37) (V c main_v25) (V c main_arg5) (V c main_arg6) (V c main_arg7)) (V c main_v38) (V c main_v39)) (((cfg1.win 9).blk t).view.emb (ix2 p q))
  rw [out_emb9, Cert.Sage.head_ix2]
  exact blockHead_eq _ _ _ _ _ _ _ _ _ _ (nodeAt t) (read_rows0 V c t) (read_rows1 V c t) (read_whole2 V c t) (read_whole3 V c t)
    (read_whole4 V c t) _ _ _ _ (read_whole5 V c t) (read_whole6 V c t) p q

/-- Grid point t writes back, to the second result array, block t of the gate of the dense stage. -/
private theorem gate_written (c : Dev nD) (t : Fin cfg1.N) :
    (dat1 (F := Ideal) V c).flushed 10 t = ((cfg1.win 10).blk t).view.read (Elt Ideal)
      (Cert.Sage.gate (Cert.Sage.dense (V c main_v37) (V c main_v25) (V c main_arg5) (V c main_arg6) (V c main_arg7)) (V c main_v40) (V c main_v41)) := by
  show (cfg1.win 10).cut (grid1.coords t) ((dat1 V c).after 10 t) = _
  rw [after1_10]
  unfold out1_10
  rw [View.canon_unit_zero origin2]
  simp only [View.ld_unit_zero (S := S5000x128) origin2, View.ld_unit_zero (S := S128x128) origin2, View.ld_unit_zero (S := S128) origin1]
  funext j
  obtain ⟨p, q, rfl⟩ : ∃ (p : Fin 5000) (q : Fin 128), j = ix2 p q := ⟨j 0, j 1, eq_ix2 j⟩
  show k1_pay3 (iblk1 V c 0 t) (iblk1 V c 1 t) (iblk1 V c 2 t) (iblk1 V c 3 t) (iblk1 V c 4 t) (iblk1 V c 7 t) (iblk1 V c 8 t) (ix2 p q)
    = (Cert.Sage.gate (Cert.Sage.dense (V c main_v37) (V c main_v25) (V c main_arg5) (V c main_arg6) (V c main_arg7)) (V c main_v40) (V c main_v41)) (((cfg1.win 10).blk t).view.emb (ix2 p q))
  rw [out_emb10, Cert.Sage.gate_ix2]
  exact blockGate_eq _ _ _ _ _ _ _ _ _ _ (nodeAt t) (read_rows0 V c t) (read_rows1 V c t) (read_whole2 V c t) (read_whole3 V c t)
    (read_whole4 V c t) _ _ _ _ (read_whole7 V c t) (read_whole8 V c t) p q

/-- After the region's 20 grid points its first result array is the head, through the first widened weight and bias,
    of the dense stage of the arrays it was entered with. -/
theorem final_head (c : Dev nD) :
    (dat1 (F := Ideal) V c).arrAt 9 cfg1.N
      = Cert.Sage.head (Cert.Sage.dense (V c main_v37) (V c main_v25) (V c main_arg5) (V c main_arg6) (V c main_arg7))
          (V c main_v38) (V c main_v39) :=
  (dat1 (F := Ideal) V c).arrAt_eq_of_cover 9 _ (fun t _ => head_written V c t) cover_out9

/-- And its second result array is the gate, through the second widened weight and bias, of the same dense stage. -/
theorem final_gate (c : Dev nD) :
    (dat1 (F := Ideal) V c).arrAt 10 cfg1.N
      = Cert.Sage.gate (Cert.Sage.dense (V c main_v37) (V c main_v25) (V c main_arg5) (V c main_arg6) (V c main_arg7))
          (V c main_v40) (V c main_v41) :=
  (dat1 (F := Ideal) V c).arrAt_eq_of_cover 10 _ (fun t _ => gate_written V c t) cover_out10

end Cert.KernelIdeal.Layer2

end
-- ==== Proof.HostTerms.lean ====
/-
  The host-side stages both programs share, named once in each program's own vocabulary: the two rows of the edge
  list, the start-index columns made of them, the sum over in-neighbours (a gather along the sources added up at the
  destinations), the in-degree clamped below by one, and the mean over in-neighbours — which the kernel's program spells
  as a product with a reciprocal and the reference as a quotient. The kernel's program also widens its two one-column
  heads to 128 columns with zeros and keeps the first column of each result.
-/
import proofs.«159413_j55602646614393_1_alg».proof.Proof.Gen.KernelIdeal
import proofs.«159413_j55602646614393_1_alg».proof.Proof.Gen.ReferenceIdeal

noncomputable section

namespace Cert.KernelIdeal.HostVal

open Cert.KernelIdeal Cert.KernelIdeal.Facts₀ Idealize.ShloMosaic

variable {F : FTy → Type} [FloatOps F]

/-- The edge list's row of source nodes, as a flat array. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edge list's row of destination nodes, as a flat array. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source nodes as a column of start indices, a negative one first wrapped by the node count. -/
def srcIdx (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32)))
      (srcRow (F := F) e))

/-- The destination nodes as a column of scatter indices. -/
def dstIdx (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The sum, at every node, of the feature rows of its in-neighbours: a gather along the edges' sources added up at
    the edges' destinations. -/
def nbrSum (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIdx (F := F) e)
    (Host.gather gather_S100000x128_S1600000x1_S1600000x128_1_0_n_n_0_1_1128 h (srcIdx (F := F) e))

/-- Every node's in-degree, clamped from below by one. -/
def degClamped (e : (⟨S2x1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32)) (dstIdx (F := F) e)
      (broadcastInDim S1600000 ![] bcast_S_S1600000 (constant S_ .f32 0x3F800000#32)))
    (broadcastInDim S100000 ![] bcast_S_S100000 (constant S_ .f32 0x3F800000#32))

/-- The reciprocal of the clamped in-degree, as a column. -/
def recipCol (e : (⟨S2x1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32)) (degClamped (F := F) e))

/-- The mean over in-neighbours, spelt as the sum times the reciprocal of the clamped in-degree. -/
def nbrMean (h : (⟨S100000x128, .f32⟩ : BufTy).Contents (Elt F)) (e : (⟨S2x1600000, .i32⟩ : BufTy).Contents (Elt F)) :
    (⟨S100000x128, .f32⟩ : BufTy).Contents (Elt F) :=
  mulf (nbrSum h e) (broadcastInDim S100000x128 ![0, 1] bcast_S100000x1_S100000x128_0_1 (recipCol (F := F) e))

/-- A one-column weight widened to 128 columns, the new columns zero. -/
def padW (w : (⟨S128x1, .f32⟩ : BufTy).Contents (Elt F)) : (⟨S128x128, .f32⟩ : BufTy).Contents (Elt F) :=
  pad S128x128 ![0, 0] ![0, 127] ![0, 0] w (sitofp .f32 (constantI S_ 32 0#32)) pads_S128x1_S128x128_000_01270 h_S_

/-- A one-entry bias widened to 128 entries, the new entries zero. -/
def padB (b : (⟨S1, .f32⟩ : BufTy).Contents (Elt F)) : (⟨S128, .f32⟩ : BufTy).Contents (Elt F) :=
  pad S128 ![0] ![127] ![0] b (sitofp .f32 (constantI S_ 32 0#32)) pads_S1_S128_01270 h_S_

/-- The first column of a node array. -/
def firstCol (p : (⟨S100000x128, .f32⟩ : BufTy).Contents (Elt F)) : (⟨S100000x1, .f32⟩ : BufTy).Contents (Elt F) :=
  extractStridedSlice S100000x1 ![0, 0] p slices_S100000x128_S100000x1_0_0

end Cert.KernelIdeal.HostVal

namespace Cert.ReferenceIdeal.HostVal

open Cert.ReferenceIdeal Cert.ReferenceIdeal.Facts₀ Idealize.ShloMosaic

variable {F : FTy → Type} [FloatOps F]

/-- The edge list's row of source nodes, as a flat array. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edge list's row of destination nodes, as a flat array. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source nodes as a column of start indices, a negative one first wrapped by the node count. -/
def srcIdx (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32)))
      (srcRow (F := F) e))

/-- The destination nodes as a column of scatter indices. -/
def dstIdx (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The sum, at every node, of the feature rows of its in-neighbours: a gather along the edges' sources added up at
    the edges' destinations. -/
def nbrSum (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIdx (F := F) e)
    (Host.gather gather_S100000x128_S1600000x1_S1600000x128_1_0_n_n_0_1_1128 h (srcIdx (F := F) e))

/-- Every node's in-degree, clamped from below by one. -/
def degClamped (e : (⟨S2x1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32)) (dstIdx (F := F) e)
      (broadcastInDim S1600000 ![] bcast_S_S1600000 (constant S_ .f32 0x3F800000#32)))
    (broadcastInDim S100000 ![] bcast_S_S100000 (constant S_ .f32 0x3F800000#32))

/-- The mean over in-neighbours, spelt as the sum divided by the clamped in-degree. -/
def nbrMean (h : (⟨S100000x128, .f32⟩ : BufTy).Contents (Elt F)) (e : (⟨S2x1600000, .i32⟩ : BufTy).Contents (Elt F)) :
    (⟨S100000x128, .f32⟩ : BufTy).Contents (Elt F) :=
  Host.divf (nbrSum h e)
    (broadcastInDim S100000x128 ![0, 1] bcast_S100000x1_S100000x128_0_1
      (broadcastInDim S100000x1 ![0] bcast_S100000_S100000x1_0 (degClamped (F := F) e)))

end Cert.ReferenceIdeal.HostVal

end
-- ==== Proof.HostK.lean ====
/-
  What the host stretches of the kernel's program leave in the buffers the two regions and the results read: each is
  one of the shared host stages (HostTerms) of the launch arguments, or an argument itself, or an earlier region's
  result carried along untouched.
-/
import proofs.«159413_j55602646614393_1_alg».proof.Proof.Gen.KernelIdeal.Frame
import proofs.«159413_j55602646614393_1_alg».proof.Proof.HostTerms
import Idealize.ShloMosaic.Lib.StableHlo.Run

set_option maxRecDepth 16384

noncomputable section

namespace Cert.KernelIdeal.HostReads

open Cert.KernelIdeal Cert.KernelIdeal.Gen Cert.KernelIdeal.HostVal Idealize.ShloMosaic Idealize.ShloMosaic.TcCoe
open Idealize.SL.Sem Idealize.ShloMosaic.StableHlo

variable {F : FTy → Type} [FloatOps F]
variable (m : (ℓ : Loc nD τ sig) → Buf (Elt F) ℓ) (ρ : Dev nD → PrngReg)

/-! ## A stretch leaves alone every buffer it does not write

For each stretch, the buffers its operations write, and the fact that the fold through the stretch keeps any other
buffer's contents: every operation writes exactly its result buffer, and distinct references are distinct buffers. -/

/-- The buffers the first stretch writes. -/
private abbrev wr0 : List (Ref sig .tc) :=
  [main_v0, main_v1, main_v2, main_v3, main_cst, main_v4, main_cst_0, main_v5, main_v6, main_v7, main_cst_1, main_v8,
   main_v9, main_cst_2, main_v10, main_v11, main_v12, main_c, main_v13, main_v14, main_c_3, main_v15, main_v16, main_v17,
   main_v18, main_v19, main_cst_4, main_v20, main_v21, main_v22, main_v23, main_v24]
/-- The buffers the stretch between the two regions writes, piece by piece. -/
private abbrev wr1 : List (Ref sig .tc) :=
  [main_c_5, main_v26, main_v27, main_c_6, main_v28, main_v29, main_v30, main_v31, main_v32, main_cst_7, main_v33,
   main_v34, main_v35, main_v36, main_v37, main_c_8]
private abbrev wr1_1 : List (Ref sig .tc) := [main_call0_v0, main_v38]
private abbrev wr1_2 : List (Ref sig .tc) := [main_c_9]
private abbrev wr1_3 : List (Ref sig .tc) := [main_call1_v0, main_v39]
private abbrev wr1_4 : List (Ref sig .tc) := [main_c_10]
private abbrev wr1_5 : List (Ref sig .tc) := [main_call2_v0, main_v40]
private abbrev wr1_6 : List (Ref sig .tc) := [main_c_11]
private abbrev wr1_7 : List (Ref sig .tc) := [main_call3_v0, main_v41]

/-- Closes `after l X b = X b` for a reference `r` (with `h : r ∉` the stretch's written buffers): each operation's
    written buffer is one of the list, so it is not `r`'s. -/
local macro "stretch_keeps " l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.reshape_writes, Finset.mem_singleton]
      repeat' apply And.intro
      all_goals exact StableHlo.devRef_ne_of_ne (fun e => ‹_ ∉ _› (by subst e; decide)))))

private theorem keeps0 (X : Valuation τ sig (Elt F)) {r : Ref sig .tc} (h : r ∉ wr0) :
    StableHlo.after hostOps0 X (Proc.devRef .tc r) = X (Proc.devRef .tc r) := by stretch_keeps hostOps0
private theorem keeps1 (X : Valuation τ sig (Elt F)) {r : Ref sig .tc} (h : r ∉ wr1) :
    StableHlo.after hostOps1 X (Proc.devRef .tc r) = X (Proc.devRef .tc r) := by stretch_keeps hostOps1
private theorem keeps1_1 (X : Valuation τ sig (Elt F)) {r : Ref sig .tc} (h : r ∉ wr1_1) :
    StableHlo.after hostOps1_1 X (Proc.devRef .tc r) = X (Proc.devRef .tc r) := by stretch_keeps hostOps1_1
private theorem keeps1_2 (X : Valuation τ sig (Elt F)) {r : Ref sig .tc} (h : r ∉ wr1_2) :
    StableHlo.after hostOps1_2 X (Proc.devRef .tc r) = X (Proc.devRef .tc r) := by stretch_keeps hostOps1_2
private theorem keeps1_3 (X : Valuation τ sig (Elt F)) {r : Ref sig .tc} (h : r ∉ wr1_3) :
    StableHlo.after hostOps1_3 X (Proc.devRef .tc r) = X (Proc.devRef .tc r) := by stretch_keeps hostOps1_3
private theorem keeps1_4 (X : Valuation τ sig (Elt F)) {r : Ref sig .tc} (h : r ∉ wr1_4) :
    StableHlo.after hostOps1_4 X (Proc.devRef .tc r) = X (Proc.devRef .tc r) := by stretch_keeps hostOps1_4
private theorem keeps1_5 (X : Valuation τ sig (Elt F)) {r : Ref sig .tc} (h : r ∉ wr1_5) :
    StableHlo.after hostOps1_5 X (Proc.devRef .tc r) = X (Proc.devRef .tc r) := by stretch_keeps hostOps1_5
private theorem keeps1_6 (X : Valuation τ sig (Elt F)) {r : Ref sig .tc} (h : r ∉ wr1_6) :
    StableHlo.after hostOps1_6 X (Proc.devRef .tc r) = X (Proc.devRef .tc r) := by stretch_keeps hostOps1_6
private theorem keeps1_7 (X : Valuation τ sig (Elt F)) {r : Ref sig .tc} (h : r ∉ wr1_7) :
    StableHlo.after hostOps1_7 X (Proc.devRef .tc r) = X (Proc.devRef .tc r) := by stretch_keeps hostOps1_7

/-! ## What each stretch computes at the buffers read later, over any contents at its start -/

/-- The first stretch's last product is the mean over in-neighbours of its first argument along its second. -/
private theorem ops0_v24 (X : Valuation τ sig (Elt F)) :
    StableHlo.after hostOps0 X (Proc.devRef .tc main_v24)
      = nbrMean (X (Proc.devRef .tc main_arg0)) (X (Proc.devRef .tc main_arg1)) := by
  unfold nbrMean nbrSum recipCol degClamped srcIdx dstIdx srcRow dstRow
  after_results_simp
  rfl
/-- The edge list's two rows and the reciprocal column, as the first stretch leaves them. -/
private theorem ops0_v1 (X : Valuation τ sig (Elt F)) :
    StableHlo.after hostOps0 X (Proc.devRef .tc main_v1) = srcRow (X (Proc.devRef .tc main_arg1)) := by
  unfold srcRow
  after_results_simp
  rfl
private theorem ops0_v3 (X : Valuation τ sig (Elt F)) :
    StableHlo.after hostOps0 X (Proc.devRef .tc main_v3) = dstRow (X (Proc.devRef .tc main_arg1)) := by
  unfold dstRow
  after_results_simp
  rfl
private theorem ops0_v12 (X : Valuation τ sig (Elt F)) :
    StableHlo.after hostOps0 X (Proc.devRef .tc main_v12) = recipCol (X (Proc.devRef .tc main_arg1)) := by
  unfold recipCol degClamped dstIdx dstRow
  after_results_simp
  rfl

/-- The stretch between the regions repeats the mean over in-neighbours on the first region's result, from the two
    rows and the reciprocal column the first stretch left. -/
private theorem ops1_v37 (X : Valuation τ sig (Elt F)) (e : (⟨S2x1600000, .i32⟩ : BufTy).Contents (Elt F))
    (h1 : X (Proc.devRef .tc main_v1) = srcRow e) (h3 : X (Proc.devRef .tc main_v3) = dstRow e)
    (h12 : X (Proc.devRef .tc main_v12) = recipCol e) :
    StableHlo.after hostOps1 X (Proc.devRef .tc main_v37) = nbrMean (X (Proc.devRef .tc main_v25)) e := by
  unfold nbrMean nbrSum srcIdx dstIdx
  rw [← h1, ← h3, ← h12]
  after_results_simp
/-- Its last operation is the integer zero the first widening converts. -/
private theorem ops1_c8 (X : Valuation τ sig (Elt F)) :
    StableHlo.after hostOps1 X (Proc.devRef .tc main_c_8) = constantI S_ 32 0#32 := by
  after_results_simp

/-- The four widenings: each converts an integer zero and pads an argument with it. -/
private theorem ops1_1_v38 (X : Valuation τ sig (Elt F)) (hc : X (Proc.devRef .tc main_c_8) = constantI S_ 32 0#32) :
    StableHlo.after hostOps1_1 X (Proc.devRef .tc main_v38) = padW (X (Proc.devRef .tc main_arg8)) := by
  unfold padW
  rw [← hc]
  after_results_simp
  rfl
private theorem ops1_2_c9 (X : Valuation τ sig (Elt F)) :
    StableHlo.after hostOps1_2 X (Proc.devRef .tc main_c_9) = constantI S_ 32 0#32 := by
  after_results_simp
private theorem ops1_3_v39 (X : Valuation τ sig (Elt F)) (hc : X (Proc.devRef .tc main_c_9) = constantI S_ 32 0#32) :
    StableHlo.after hostOps1_3 X (Proc.devRef .tc main_v39) = padB (X (Proc.devRef .tc main_arg9)) := by
  unfold padB
  rw [← hc]
  after_results_simp
  rfl
private theorem ops1_4_c10 (X : Valuation τ sig (Elt F)) :
    StableHlo.after hostOps1_4 X (Proc.devRef .tc main_c_10) = constantI S_ 32 0#32 := by
  after_results_simp
private theorem ops1_5_v40 (X : Valuation τ sig (Elt F)) (hc : X (Proc.devRef .tc main_c_10) = constantI S_ 32 0#32) :
    StableHlo.after hostOps1_5 X (Proc.devRef .tc main_v40) = padW (X (Proc.devRef .tc main_arg10)) := by
  unfold padW
  rw [← hc]
  after_results_simp
  rfl
private theorem ops1_6_c11 (X : Valuation τ sig (Elt F)) :
    StableHlo.after hostOps1_6 X (Proc.devRef .tc main_c_11) = constantI S_ 32 0#32 := by
  after_results_simp
private theorem ops1_7_v41 (X : Valuation τ sig (Elt F)) (hc : X (Proc.devRef .tc main_c_11) = constantI S_ 32 0#32) :
    StableHlo.after hostOps1_7 X (Proc.devRef .tc main_v41) = padB (X (Proc.devRef .tc main_arg11)) := by
  unfold padB
  rw [← hc]
  after_results_simp
  rfl

/-- The last stretch: the first columns of the second region's two results, subtracted and added. -/
private theorem ops2_v45 (X : Valuation τ sig (Elt F)) :
    StableHlo.after hostOps2 X (Proc.devRef .tc main_v45)
      = subf (firstCol (X (Proc.devRef .tc main_v42_0))) (firstCol (X (Proc.devRef .tc main_v42_1))) := by
  unfold firstCol
  after_results_simp
private theorem ops2_v46 (X : Valuation τ sig (Elt F)) :
    StableHlo.after hostOps2 X (Proc.devRef .tc main_v46)
      = addf (firstCol (X (Proc.devRef .tc main_v42_0))) (firstCol (X (Proc.devRef .tc main_v42_1))) := by
  unfold firstCol
  after_results_simp

/-! ## The launch arguments below each boundary

No stretch writes an argument and the first region holds none of the later arguments, so the fold at such a buffer walks
back, stretch by stretch, to the launch memory. -/

private theorem W1_launch (c : Dev nD) {r : Ref sig .tc} (h0 : r ∉ wr0) :
    W1 m ρ c (Proc.devRef .tc r) = m ((c : Thread nD τ).loc r) :=
  (keeps0 (W0 m ρ c) h0).trans rfl
private theorem W2_launch (c : Dev nD) {r : Ref sig .tc} (h0 : r ∉ wr0) (ha : ∀ w, Pipeline.arrRef spec0 w ≠ r) :
    W2 m ρ c (Proc.devRef .tc r) = m ((c : Thread nD τ).loc r) :=
  (W2_of_ne m ρ c r ha).trans (W1_launch m ρ c h0)
private theorem W3_launch (c : Dev nD) {r : Ref sig .tc} (h0 : r ∉ wr0) (ha : ∀ w, Pipeline.arrRef spec0 w ≠ r)
    (h1 : r ∉ wr1) : W3 m ρ c (Proc.devRef .tc r) = m ((c : Thread nD τ).loc r) :=
  (keeps1 (W2 m ρ c) h1).trans (W2_launch m ρ c h0 ha)
private theorem W5_launch (c : Dev nD) {r : Ref sig .tc} (h0 : r ∉ wr0) (ha : ∀ w, Pipeline.arrRef spec0 w ≠ r)
    (h1 : r ∉ wr1) (h11 : r ∉ wr1_1) (h12 : r ∉ wr1_2) : W5 m ρ c (Proc.devRef .tc r) = m ((c : Thread nD τ).loc r) :=
  (keeps1_2 (W4 m ρ c) h12).trans ((keeps1_1 (W3 m ρ c) h11).trans (W3_launch m ρ c h0 ha h1))
private theorem W7_launch (c : Dev nD) {r : Ref sig .tc} (h0 : r ∉ wr0) (ha : ∀ w, Pipeline.arrRef spec0 w ≠ r)
    (h1 : r ∉ wr1) (h11 : r ∉ wr1_1) (h12 : r ∉ wr1_2) (h13 : r ∉ wr1_3) (h14 : r ∉ wr1_4) :
    W7 m ρ c (Proc.devRef .tc r) = m ((c : Thread nD τ).loc r) :=
  (keeps1_4 (W6 m ρ c) h14).trans ((keeps1_3 (W5 m ρ c) h13).trans (W5_launch m ρ c h0 ha h1 h11 h12))
private theorem W9_launch (c : Dev nD) {r : Ref sig .tc} (h0 : r ∉ wr0) (ha : ∀ w, Pipeline.arrRef spec0 w ≠ r)
    (h1 : r ∉ wr1) (h11 : r ∉ wr1_1) (h12 : r ∉ wr1_2) (h13 : r ∉ wr1_3) (h14 : r ∉ wr1_4) (h15 : r ∉ wr1_5)
    (h16 : r ∉ wr1_6) : W9 m ρ c (Proc.devRef .tc r) = m ((c : Thread nD τ).loc r) :=
  (keeps1_6 (W8 m ρ c) h16).trans ((keeps1_5 (W7 m ρ c) h15).trans (W7_launch m ρ c h0 ha h1 h11 h12 h13 h14))
private theorem W10_launch (c : Dev nD) {r : Ref sig .tc} (h0 : r ∉ wr0) (ha : ∀ w, Pipeline.arrRef spec0 w ≠ r)
    (h1 : r ∉ wr1) (h11 : r ∉ wr1_1) (h12 : r ∉ wr1_2) (h13 : r ∉ wr1_3) (h14 : r ∉ wr1_4) (h15 : r ∉ wr1_5)
    (h16 : r ∉ wr1_6) (h17 : r ∉ wr1_7) : W10 m ρ c (Proc.devRef .tc r) = m ((c : Thread nD τ).loc r) :=
  (keeps1_7 (W9 m ρ c) h17).trans (W9_launch m ρ c h0 ha h1 h11 h12 h13 h14 h15 h16)

/-! ## The edge list's rows and the reciprocal column at the first region's exit -/

/-- The first region holds neither row of the edge list nor the reciprocal column: at its exit they are what the first
    stretch made of the edge list. -/
private theorem W2_v1 (c : Dev nD) : W2 m ρ c (Proc.devRef .tc main_v1) = srcRow (m ((c : Thread nD τ).loc main_arg1)) :=
  (W2_of_ne m ρ c main_v1 (by decide)).trans (ops0_v1 (W0 m ρ c))
private theorem W2_v3 (c : Dev nD) : W2 m ρ c (Proc.devRef .tc main_v3) = dstRow (m ((c : Thread nD τ).loc main_arg1)) :=
  (W2_of_ne m ρ c main_v3 (by decide)).trans (ops0_v3 (W0 m ρ c))
private theorem W2_v12 (c : Dev nD) : W2 m ρ c (Proc.devRef .tc main_v12) = recipCol (m ((c : Thread nD τ).loc main_arg1)) :=
  (W2_of_ne m ρ c main_v12 (by decide)).trans (ops0_v12 (W0 m ρ c))

/-! ## The first region's entry -/

/-- The first region's aggregated operand is the mean over in-neighbours of the node features. -/
theorem W1_v24 (c : Dev nD) : W1 m ρ c (Proc.devRef .tc main_v24)
    = nbrMean (m ((c : Thread nD τ).loc main_arg0)) (m ((c : Thread nD τ).loc main_arg1)) := by
  exact ops0_v24 (W0 m ρ c)
theorem W1_arg0 (c : Dev nD) : W1 m ρ c (Proc.devRef .tc main_arg0) = m ((c : Thread nD τ).loc main_arg0) := by
  exact W1_launch m ρ c (by decide)
theorem W1_arg2 (c : Dev nD) : W1 m ρ c (Proc.devRef .tc main_arg2) = m ((c : Thread nD τ).loc main_arg2) := by
  exact W1_launch m ρ c (by decide)
theorem W1_arg3 (c : Dev nD) : W1 m ρ c (Proc.devRef .tc main_arg3) = m ((c : Thread nD τ).loc main_arg3) := by
  exact W1_launch m ρ c (by decide)
theorem W1_arg4 (c : Dev nD) : W1 m ρ c (Proc.devRef .tc main_arg4) = m ((c : Thread nD τ).loc main_arg4) := by
  exact W1_launch m ρ c (by decide)

/-! ## The second region's entry -/

/-- The second region's aggregated operand is the mean over in-neighbours of the first region's result. -/
theorem W10_v37 (c : Dev nD) : W10 m ρ c (Proc.devRef .tc main_v37)
    = nbrMean (W2 m ρ c (Proc.devRef .tc main_v25)) (m ((c : Thread nD τ).loc main_arg1)) := by
  exact (keeps1_7 (W9 m ρ c) (by decide)).trans <| (keeps1_6 (W8 m ρ c) (by decide)).trans <|
    (keeps1_5 (W7 m ρ c) (by decide)).trans <| (keeps1_4 (W6 m ρ c) (by decide)).trans <|
    (keeps1_3 (W5 m ρ c) (by decide)).trans <| (keeps1_2 (W4 m ρ c) (by decide)).trans <|
    (keeps1_1 (W3 m ρ c) (by decide)).trans <|
    ops1_v37 (W2 m ρ c) (m ((c : Thread nD τ).loc main_arg1)) (W2_v1 m ρ c) (W2_v3 m ρ c) (W2_v12 m ρ c)
/-- The first region's result reaches the second region untouched. -/
theorem W10_v25 (c : Dev nD) : W10 m ρ c (Proc.devRef .tc main_v25) = W2 m ρ c (Proc.devRef .tc main_v25) := by
  exact (keeps1_7 (W9 m ρ c) (by decide)).trans <| (keeps1_6 (W8 m ρ c) (by decide)).trans <|
    (keeps1_5 (W7 m ρ c) (by decide)).trans <| (keeps1_4 (W6 m ρ c) (by decide)).trans <|
    (keeps1_3 (W5 m ρ c) (by decide)).trans <| (keeps1_2 (W4 m ρ c) (by decide)).trans <|
    (keeps1_1 (W3 m ρ c) (by decide)).trans <| keeps1 (W2 m ρ c) (by decide)
theorem W10_arg5 (c : Dev nD) : W10 m ρ c (Proc.devRef .tc main_arg5) = m ((c : Thread nD τ).loc main_arg5) := by
  exact W10_launch m ρ c (by decide) (by decide) (by decide) (by decide) (by decide) (by decide) (by decide) (by decide)
    (by decide) (by decide)
theorem W10_arg6 (c : Dev nD) : W10 m ρ c (Proc.devRef .tc main_arg6) = m ((c : Thread nD τ).loc main_arg6) := by
  exact W10_launch m ρ c (by decide) (by decide) (by decide) (by decide) (by decide) (by decide) (by decide) (by decide)
    (by decide) (by decide)
theorem W10_arg7 (c : Dev nD) : W10 m ρ c (Proc.devRef .tc main_arg7) = m ((c : Thread nD τ).loc main_arg7) := by
  exact W10_launch m ρ c (by decide) (by decide) (by decide) (by decide) (by decide) (by decide) (by decide) (by decide)
    (by decide) (by decide)
theorem W10_v38 (c : Dev nD) : W10 m ρ c (Proc.devRef .tc main_v38) = padW (m ((c : Thread nD τ).loc main_arg8)) := by
  exact (keeps1_7 (W9 m ρ c) (by decide)).trans <| (keeps1_6 (W8 m ρ c) (by decide)).trans <|
    (keeps1_5 (W7 m ρ c) (by decide)).trans <| (keeps1_4 (W6 m ρ c) (by decide)).trans <|
    (keeps1_3 (W5 m ρ c) (by decide)).trans <| (keeps1_2 (W4 m ρ c) (by decide)).trans <|
    (ops1_1_v38 (W3 m ρ c) (ops1_c8 (W2 m ρ c))).trans
      (congrArg padW (W3_launch m ρ c (by decide) (by decide) (by decide)))
theorem W10_v39 (c : Dev nD) : W10 m ρ c (Proc.devRef .tc main_v39) = padB (m ((c : Thread nD τ).loc main_arg9)) := by
  exact (keeps1_7 (W9 m ρ c) (by decide)).trans <| (keeps1_6 (W8 m ρ c) (by decide)).trans <|
    (keeps1_5 (W7 m ρ c) (by decide)).trans <| (keeps1_4 (W6 m ρ c) (by decide)).trans <|
    (ops1_3_v39 (W5 m ρ c) (ops1_2_c9 (W4 m ρ c))).trans
      (congrArg padB (W5_launch m ρ c (by decide) (by decide) (by decide) (by decide) (by decide)))
theorem W10_v40 (c : Dev nD) : W10 m ρ c (Proc.devRef .tc main_v40) = padW (m ((c : Thread nD τ).loc main_arg10)) := by
  exact (keeps1_7 (W9 m ρ c) (by decide)).trans <| (keeps1_6 (W8 m ρ c) (by decide)).trans <|
    (ops1_5_v40 (W7 m ρ c) (ops1_4_c10 (W6 m ρ c))).trans
      (congrArg padW (W7_launch m ρ c (by decide) (by decide) (by decide) (by decide) (by decide) (by decide) (by decide)))
theorem W10_v41 (c : Dev nD) : W10 m ρ c (Proc.devRef .tc main_v41) = padB (m ((c : Thread nD τ).loc main_arg11)) := by
  exact (ops1_7_v41 (W9 m ρ c) (ops1_6_c11 (W8 m ρ c))).trans
    (congrArg padB (W9_launch m ρ c (by decide) (by decide) (by decide) (by decide) (by decide) (by decide) (by decide)
      (by decide) (by decide)))

/-! ## The results -/

/-- The first result is the first column of the second region's first result minus that of its second. -/
theorem W12_v45 (c : Dev nD) : W12 m ρ c (Proc.devRef .tc main_v45)
    = subf (firstCol (W11 m ρ c (Proc.devRef .tc main_v42_0))) (firstCol (W11 m ρ c (Proc.devRef .tc main_v42_1))) := by
  exact ops2_v45 (W11 m ρ c)
/-- The second result is their sum. -/
theorem W12_v46 (c : Dev nD) : W12 m ρ c (Proc.devRef .tc main_v46)
    = addf (firstCol (W11 m ρ c (Proc.devRef .tc main_v42_0))) (firstCol (W11 m ρ c (Proc.devRef .tc main_v42_1))) := by
  exact ops2_v46 (W11 m ρ c)

end Cert.KernelIdeal.HostReads

end
-- ==== Proof.Bridge.lean ====
/-
  Where the two programs' spellings meet. The sum over in-neighbours and the clamped in-degree are the same terms in
  either program's vocabulary. The mean over in-neighbours is spelt as a product with a reciprocal on one side and as a
  quotient on the other: both broadcasts read the clamped in-degree at one and the same node, the clamped in-degree
  is at least one, and so the two are equal at every extended real. A head through a one-column weight widened with
  zero columns, read at its first column, is the prediction through the one-column weight itself: the widened
  weight's first column is the weight, the widened bias's first entry the bias.
-/
import proofs.«159413_j55602646614393_1_alg».proof.Proof.HostTerms
import proofs.«159413_j55602646614393_1_alg».proof.Proof.Spec
import Idealize.ShloMosaic.Lib.Pipeline.Value
import Idealize.ShloMosaic.Lib.KernelVsHost
import Idealize.ShloMosaic.Lib.IdealHost

noncomputable section

open scoped BigOperators

namespace Cert.Bridge

open Idealize.ShloMosaic Idealize.ShloMosaic.ValueIdx

section Mean

open Cert.KernelIdeal Cert.KernelIdeal.Facts₀

variable (h : (⟨S100000x128, .f32⟩ : BufTy).Contents (Elt Ideal)) (e : (⟨S2x1600000, .i32⟩ : BufTy).Contents (Elt Ideal))

/-- The sum over in-neighbours is one term in both vocabularies. -/
theorem nbrSum_eq : Cert.KernelIdeal.HostVal.nbrSum (F := Ideal) h e = Cert.ReferenceIdeal.HostVal.nbrSum (F := Ideal) h e := rfl

/-- The clamped in-degree is one term in both vocabularies. -/
theorem degClamped_eq : Cert.KernelIdeal.HostVal.degClamped (F := Ideal) e = Cert.ReferenceIdeal.HostVal.degClamped (F := Ideal) e := rfl

/-- The node a node-feature index belongs to, as an index of a per-node array. -/
abbrev nodeOf (i : S100000x128.Idx) : S100000.Idx := ix1 (⟨(i 0).val, (i 0).isLt⟩ : Fin 100000)

/-- A per-node array made a column and then spread over the 128 features reads, at a node-feature index, the
    per-node array at that index's node. -/
theorem spread_apply {α : Type} (y : S100000.Idx → α) (i : S100000x128.Idx) :
    broadcastInDim S100000x128 ![0, 1] bcast_S100000x1_S100000x128_0_1
      (broadcastInDim S100000x1 ![0] bcast_S100000_S100000x1_0 y) i = y (nodeOf i) := by
  rw [broadcastInDim_apply ![0, 1] bcast_S100000x1_S100000x128_0_1 _ i
    (ix2 (⟨(i 0).val, (i 0).isLt⟩ : Fin 100000) (0 : Fin 1)) (fun a => by
      match a with
      | ⟨0, _⟩ => rfl
      | ⟨1, _⟩ => rfl)]
  exact broadcastInDim_apply ![0] bcast_S100000_S100000x1_0 y
    (ix2 (⟨(i 0).val, (i 0).isLt⟩ : Fin 100000) (0 : Fin 1)) (nodeOf i) (fun a => by
    match a with
    | ⟨0, _⟩ => rfl)

/-- The one-word splat read anywhere is the extended real one. -/
theorem ones_apply (j : S100000.Idx) :
    broadcastInDim S100000 ![] bcast_S_S100000 (constant (F := Ideal) S_ .f32 0x3F800000#32) j = 1 := by
  rw [broadcastInDim_scalar_apply, constant_apply, Ideal.ofBits_one_f32]

/-- The mean over in-neighbours is the same array in both spellings: at every node-feature index the product with the
    reciprocal of the clamped in-degree of the index's node is the quotient by it. -/
theorem nbrMean_eq : Cert.KernelIdeal.HostVal.nbrMean (F := Ideal) h e = Cert.ReferenceIdeal.HostVal.nbrMean (F := Ideal) h e := by
  funext i
  unfold Cert.KernelIdeal.HostVal.nbrMean Cert.ReferenceIdeal.HostVal.nbrMean Cert.KernelIdeal.HostVal.recipCol
  rw [← nbrSum_eq h e, ← degClamped_eq e]
  unfold Cert.KernelIdeal.HostVal.degClamped
  generalize Host.scatterAdd (F := Ideal) scatter_S100000_S1600000x1_S1600000_n_0_0_1 _ _ _ = cnt
  generalize Cert.KernelIdeal.HostVal.nbrSum (F := Ideal) h e = A
  rw [mulf_apply, hostDivf_apply, spread_apply, spread_apply, hostDivf_apply, maximumf_apply, ones_apply]
  exact Cert.Sage.mul_recip_clamped _ _

end Mean

section Heads

open Cert.KernelIdeal Cert.KernelIdeal.Facts₀ Cert.KernelIdeal.HostVal

variable (H : FVec Ideal Cert.Sage.Nodes .f32)

/-- The first column of a node array, read at a per-node index. -/
theorem firstCol_apply (p : (⟨S100000x128, .f32⟩ : BufTy).Contents (Elt Ideal)) (i : S100000x1.Idx) :
    firstCol (F := Ideal) p i = p (ix2 (⟨(i 0).val, (i 0).isLt⟩ : Fin 100000) (0 : Fin 128)) := by
  unfold firstCol
  refine extractStridedSlice_apply ![0, 0] p slices_S100000x128_S100000x1_0_0 i _ (fun a => ?_)
  match a with
  | ⟨0, _⟩ => show (i 0).val = 0 + (i 0).val; omega
  | ⟨1, _⟩ => show 0 = 0 + (i 1).val; have : (i 1).val < 1 := (i 1).isLt; omega

/-- The widened weight's first column is the one-column weight. -/
theorem padW_col0 (w : (⟨S128x1, .f32⟩ : BufTy).Contents (Elt Ideal)) (k : Fin 128) :
    padW (F := Ideal) w (ix2 k (0 : Fin 128)) = w (ix2 k (0 : Fin 1)) := by
  unfold padW
  refine pad_apply_of_inside ![0, 0] ![0, 127] ![0, 0] w _ pads_S128x1_S128x128_000_01270 h_S_ _ _ (fun a => ?_)
  match a with
  | ⟨0, _⟩ => show k.val = 0 + k.val * (0 + 1); omega
  | ⟨1, _⟩ => show 0 = 0 + 0 * (0 + 1); omega

/-- The widened bias's first entry is the one bias. -/
theorem padB_entry0 (b : (⟨S1, .f32⟩ : BufTy).Contents (Elt Ideal)) :
    padB (F := Ideal) b (ix1 (0 : Fin 128)) = b (ix1 (0 : Fin 1)) := by
  unfold padB
  refine pad_apply_of_inside ![0] ![127] ![0] b _ pads_S1_S128_01270 h_S_ _ _ (fun a => ?_)
  match a with
  | ⟨0, _⟩ => show 0 = 0 + 0 * (0 + 1); omega

/-- A head through the widened weight and bias, at its first column, is the prediction through the one-column weight
    and the one bias. -/
theorem headAt_pad (w : (⟨S128x1, .f32⟩ : BufTy).Contents (Elt Ideal)) (b : (⟨S1, .f32⟩ : BufTy).Contents (Elt Ideal))
    (r : Fin 100000) :
    Cert.Sage.headAt H (padW (F := Ideal) w) (padB (F := Ideal) b) r (0 : Fin 128) = Cert.Sage.predAt H w b r := by
  unfold Cert.Sage.headAt Cert.Sage.predAt
  rw [padB_entry0]
  exact congrArg (· + b (ix1 (0 : Fin 1))) (Finset.sum_congr rfl fun k _ => by rw [padW_col0])

/-- The first result: the first column of the head minus the first column of the gate is the prediction minus the
    gated difficulty. -/
theorem sub_firstCols (wp : (⟨S128x1, .f32⟩ : BufTy).Contents (Elt Ideal)) (bp : (⟨S1, .f32⟩ : BufTy).Contents (Elt Ideal))
    (wd : (⟨S128x1, .f32⟩ : BufTy).Contents (Elt Ideal)) (bd : (⟨S1, .f32⟩ : BufTy).Contents (Elt Ideal)) :
    subf (firstCol (F := Ideal) (Cert.Sage.head H (padW (F := Ideal) wp) (padB (F := Ideal) bp)))
        (firstCol (F := Ideal) (Cert.Sage.gate H (padW (F := Ideal) wd) (padB (F := Ideal) bd)))
      = Cert.Sage.outSub H wp bp wd bd := by
  funext i
  rw [subf_apply, firstCol_apply, firstCol_apply, Cert.Sage.head_ix2, Cert.Sage.gate_ix2, headAt_pad, headAt_pad]
  rfl

/-- The second result: their sum is the prediction plus the gated difficulty. -/
theorem add_firstCols (wp : (⟨S128x1, .f32⟩ : BufTy).Contents (Elt Ideal)) (bp : (⟨S1, .f32⟩ : BufTy).Contents (Elt Ideal))
    (wd : (⟨S128x1, .f32⟩ : BufTy).Contents (Elt Ideal)) (bd : (⟨S1, .f32⟩ : BufTy).Contents (Elt Ideal)) :
    addf (firstCol (F := Ideal) (Cert.Sage.head H (padW (F := Ideal) wp) (padB (F := Ideal) bp)))
        (firstCol (F := Ideal) (Cert.Sage.gate H (padW (F := Ideal) wd) (padB (F := Ideal) bd)))
      = Cert.Sage.outAdd H wp bp wd bd := by
  funext i
  rw [addf_apply, firstCol_apply, firstCol_apply, Cert.Sage.head_ix2, Cert.Sage.gate_ix2, headAt_pad, headAt_pad]
  rfl

end Heads

section Net

open Cert.ReferenceIdeal

/-- The first layer's output: the dense stage of the mean over in-neighbours of the node features and the features. -/
abbrev hidden1 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    FVec Ideal Cert.Sage.Nodes .f32 :=
  Cert.Sage.dense (Cert.ReferenceIdeal.HostVal.nbrMean (F := Ideal) x0 x1) x0 x2 x3 x4

/-- The second layer's output: the dense stage of the mean over in-neighbours of the first layer's output and that
    output. -/
abbrev hidden2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    FVec Ideal Cert.Sage.Nodes .f32 :=
  Cert.Sage.dense (Cert.ReferenceIdeal.HostVal.nbrMean (F := Ideal) (hidden1 x0 x1 x2 x3 x4) x1) (hidden1 x0 x1 x2 x3 x4) x5 x6 x7

/-- The first result as a function of the twelve arguments: the prediction minus the gated difficulty of the second
    layer's output. -/
def out0 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal))
    (x10 : (⟨S128x1, .f32⟩ : BufTy).Contents (Elt Ideal)) (x11 : (⟨S1, .f32⟩ : BufTy).Contents (Elt Ideal)) : FVec Ideal Cert.Sage.PerNode .f32 :=
  Cert.Sage.outSub (hidden2 x0 x1 x2 x3 x4 x5 x6 x7) x8 x9 x10 x11

/-- The second result: the prediction plus the gated difficulty. -/
def out1 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal))
    (x10 : (⟨S128x1, .f32⟩ : BufTy).Contents (Elt Ideal)) (x11 : (⟨S1, .f32⟩ : BufTy).Contents (Elt Ideal)) : FVec Ideal Cert.Sage.PerNode .f32 :=
  Cert.Sage.outAdd (hidden2 x0 x1 x2 x3 x4 x5 x6 x7) x8 x9 x10 x11

end Net

end Cert.Bridge

end
-- ==== Proof.KernelValue.lean ====
/-
  The kernel's program, read end to end: its first pipeline leaves the first layer's output, its second the head and
  the gate of the second layer's output through the widened weights, and the last host stretch keeps their first
  columns' difference and sum — the prediction minus and plus the gated difficulty.
-/
import proofs.«159413_j55602646614393_1_alg».proof.Proof.Results
import proofs.«159413_j55602646614393_1_alg».proof.Proof.Region0
import proofs.«159413_j55602646614393_1_alg».proof.Proof.Region1
import proofs.«159413_j55602646614393_1_alg».proof.Proof.HostK
import proofs.«159413_j55602646614393_1_alg».proof.Proof.Bridge

set_option maxRecDepth 16384

noncomputable section

namespace Cert.KernelIdeal.Net

open Cert.KernelIdeal Cert.KernelIdeal.Gen Cert.KernelIdeal.HostReads Cert.KernelIdeal.HostVal
open Idealize.ShloMosaic Idealize.ShloMosaic.TcCoe Idealize.SL.Sem

variable (m : (ℓ : Loc nD τ sig) → Buf (Elt Ideal) ℓ) (ρ : Dev nD → PrngReg)

/-- The second layer's output as a function of the launch arguments. -/
abbrev hid2 (c : Dev nD) : FVec Ideal Cert.Sage.Nodes .f32 :=
  Cert.Bridge.hidden2 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The first pipeline leaves the first layer's output in its result array. -/
theorem first_layer (c : Dev nD) : W2 m ρ c (Proc.devRef .tc main_v25)
    = Cert.Bridge.hidden1 (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 5).trans ?_
  rw [Cert.KernelIdeal.Layer1.final (V1 m ρ) c]
  show Cert.Sage.dense (W1 m ρ c (Proc.devRef .tc main_v24)) (W1 m ρ c (Proc.devRef .tc main_arg0))
    (W1 m ρ c (Proc.devRef .tc main_arg2)) (W1 m ρ c (Proc.devRef .tc main_arg3)) (W1 m ρ c (Proc.devRef .tc main_arg4)) = _
  rw [W1_v24, W1_arg0, W1_arg2, W1_arg3, W1_arg4, Cert.Bridge.nbrMean_eq]

/-- The second pipeline's first result array is the head of the second layer's output through the widened weight. -/
theorem second_head (c : Dev nD) : W11 m ρ c (Proc.devRef .tc main_v42_0)
    = Cert.Sage.head (hid2 m c) (padW (m ((c : Thread nD τ).loc main_arg8))) (padB (m ((c : Thread nD τ).loc main_arg9))) := by
  refine (W11_arr m ρ c 9).trans ?_
  rw [Cert.KernelIdeal.Layer2.final_head (V10 m ρ) c]
  show Cert.Sage.head (Cert.Sage.dense (W10 m ρ c (Proc.devRef .tc main_v37)) (W10 m ρ c (Proc.devRef .tc main_v25))
    (W10 m ρ c (Proc.devRef .tc main_arg5)) (W10 m ρ c (Proc.devRef .tc main_arg6)) (W10 m ρ c (Proc.devRef .tc main_arg7)))
    (W10 m ρ c (Proc.devRef .tc main_v38)) (W10 m ρ c (Proc.devRef .tc main_v39)) = _
  rw [W10_v37, W10_v25, W10_arg5, W10_arg6, W10_arg7, W10_v38, W10_v39, first_layer, Cert.Bridge.nbrMean_eq]

/-- Its second result array is the gate of the second layer's output through the other widened weight. -/
theorem second_gate (c : Dev nD) : W11 m ρ c (Proc.devRef .tc main_v42_1)
    = Cert.Sage.gate (hid2 m c) (padW (m ((c : Thread nD τ).loc main_arg10))) (padB (m ((c : Thread nD τ).loc main_arg11))) := by
  refine (W11_arr m ρ c 10).trans ?_
  rw [Cert.KernelIdeal.Layer2.final_gate (V10 m ρ) c]
  show Cert.Sage.gate (Cert.Sage.dense (W10 m ρ c (Proc.devRef .tc main_v37)) (W10 m ρ c (Proc.devRef .tc main_v25))
    (W10 m ρ c (Proc.devRef .tc main_arg5)) (W10 m ρ c (Proc.devRef .tc main_arg6)) (W10 m ρ c (Proc.devRef .tc main_arg7)))
    (W10 m ρ c (Proc.devRef .tc main_v40)) (W10 m ρ c (Proc.devRef .tc main_v41)) = _
  rw [W10_v37, W10_v25, W10_arg5, W10_arg6, W10_arg7, W10_v40, W10_v41, first_layer, Cert.Bridge.nbrMean_eq]

/-- The first result: the prediction minus the gated difficulty of the second layer's output. -/
theorem result0 (c : Dev nD) : W12 m ρ c (Proc.devRef .tc main_v45)
    = Cert.Bridge.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Cert.Bridge.out0
  rw [W12_v45, second_head, second_gate]
  exact Cert.Bridge.sub_firstCols _ _ _ _ _

/-- The second result: the prediction plus the gated difficulty. -/
theorem result1 (c : Dev nD) : W12 m ρ c (Proc.devRef .tc main_v46)
    = Cert.Bridge.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Cert.Bridge.out1
  rw [W12_v46, second_head, second_gate]
  exact Cert.Bridge.add_firstCols _ _ _ _ _

/-- Every weakly fair execution of the kernel's program terminates without a fault, with the two results at the
    prediction minus and plus the gated difficulty and the arguments as launched. -/
theorem run : θ_run defs (onTc (τ := τ) (main (F := Ideal))) ⟨m, fun _ => 0, ρ⟩ (fun r => ∀ c : Dev nD,
      r.2.mem ((c.tc : Thread nD τ).loc main_v45) = Cert.Bridge.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v46) = Cert.Bridge.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result0 m ρ c), (h c).2.1.trans (result1 m ρ c), (h c).2.2⟩)
    (Cert.KernelIdeal.Results.run_results m ρ)

end Cert.KernelIdeal.Net

end
-- ==== Proof.RefBridge.lean ====
/-
  The reference program, stage by stage, in the words of the specification: each of its two means over in-neighbours is
  the shared host stage, each of its two layers is the dense stage of that mean and the layer's input, and its two results
  are the prediction minus and plus the gated difficulty of the second layer's output.
-/
import proofs.«159413_j55602646614393_1_alg».proof.Proof.Gen.ReferenceIdeal.Read
import proofs.«159413_j55602646614393_1_alg».proof.Proof.Spec
import proofs.«159413_j55602646614393_1_alg».proof.Proof.HostTerms
import Idealize.ShloMosaic.Lib.IdealHost

set_option maxRecDepth 16384

noncomputable section

open scoped BigOperators

namespace Cert.ReferenceIdeal.Layers

open Cert.ReferenceIdeal Cert.ReferenceIdeal.Gen Cert.ReferenceIdeal.Read Cert.ReferenceIdeal.HostVal
open Idealize.ShloMosaic Idealize.ShloMosaic.TcCoe Idealize.ShloMosaic.ValueIdx

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))
  (x10 : (⟨S128x1, .f32⟩ : BufTy).Contents (Elt Ideal)) (x11 : (⟨S1, .f32⟩ : BufTy).Contents (Elt Ideal))

/-! ## Where a matrix product reads its factors, and a bias row its entry

At node `r`, column `q`, the `k`-th summand of a product of a node array with a weight matrix is the node array at
`(r, k)` times the weight at `(k, q)`; a bias row stretched over all nodes is read at `q` alone. One pair of such
equations per matrix product of the program, each by cases on the axis. -/

private theorem lidx23 (r : Fin 100000) (q k : Fin 128) : lidx_main_v23 (ix2 r q) k = ix2 r k := by
  funext a; match a with | ⟨0, _⟩ => rfl | ⟨1, _⟩ => rfl
private theorem ridx23 (r : Fin 100000) (q k : Fin 128) : ridx_main_v23 (ix2 r q) k = ix2 k q := by
  funext a; match a with | ⟨0, _⟩ => rfl | ⟨1, _⟩ => rfl
private theorem lidx27 (r : Fin 100000) (q k : Fin 128) : lidx_main_v27 (ix2 r q) k = ix2 r k := by
  funext a; match a with | ⟨0, _⟩ => rfl | ⟨1, _⟩ => rfl
private theorem ridx27 (r : Fin 100000) (q k : Fin 128) : ridx_main_v27 (ix2 r q) k = ix2 k q := by
  funext a; match a with | ⟨0, _⟩ => rfl | ⟨1, _⟩ => rfl
private theorem lidx49 (r : Fin 100000) (q k : Fin 128) : lidx_main_v49 (ix2 r q) k = ix2 r k := by
  funext a; match a with | ⟨0, _⟩ => rfl | ⟨1, _⟩ => rfl
private theorem ridx49 (r : Fin 100000) (q k : Fin 128) : ridx_main_v49 (ix2 r q) k = ix2 k q := by
  funext a; match a with | ⟨0, _⟩ => rfl | ⟨1, _⟩ => rfl
private theorem lidx53 (r : Fin 100000) (q k : Fin 128) : lidx_main_v53 (ix2 r q) k = ix2 r k := by
  funext a; match a with | ⟨0, _⟩ => rfl | ⟨1, _⟩ => rfl
private theorem ridx53 (r : Fin 100000) (q k : Fin 128) : ridx_main_v53 (ix2 r q) k = ix2 k q := by
  funext a; match a with | ⟨0, _⟩ => rfl | ⟨1, _⟩ => rfl
private theorem lidx56 (r : Fin 100000) (k : Fin 128) : lidx_main_v56 (ix2 r (0 : Fin 1)) k = ix2 r k := by
  funext a; match a with | ⟨0, _⟩ => rfl | ⟨1, _⟩ => rfl
private theorem ridx56 (r : Fin 100000) (k : Fin 128) : ridx_main_v56 (ix2 r (0 : Fin 1)) k = ix2 k (0 : Fin 1) := by
  funext a; match a with | ⟨0, _⟩ => rfl | ⟨1, _⟩ => rfl
private theorem lidx60 (r : Fin 100000) (k : Fin 128) : lidx_main_v60 (ix2 r (0 : Fin 1)) k = ix2 r k := by
  funext a; match a with | ⟨0, _⟩ => rfl | ⟨1, _⟩ => rfl
private theorem ridx60 (r : Fin 100000) (k : Fin 128) : ridx_main_v60 (ix2 r (0 : Fin 1)) k = ix2 k (0 : Fin 1) := by
  funext a; match a with | ⟨0, _⟩ => rfl | ⟨1, _⟩ => rfl

private theorem bias25 (r : Fin 100000) (q : Fin 128) : idx_main_v24 (idx_main_v25 (ix2 r q)) = ix1 q := by
  funext a; match a with | ⟨0, _⟩ => rfl
private theorem bias51 (r : Fin 100000) (q : Fin 128) : idx_main_v50 (idx_main_v51 (ix2 r q)) = ix1 q := by
  funext a; match a with | ⟨0, _⟩ => rfl
private theorem bias58 (r : Fin 100000) : idx_main_v57 (idx_main_v58 (ix2 r (0 : Fin 1))) = ix1 (0 : Fin 1) := by
  funext a; match a with | ⟨0, _⟩ => rfl
private theorem bias62 (r : Fin 100000) : idx_main_v61 (idx_main_v62 (ix2 r (0 : Fin 1))) = ix1 (0 : Fin 1) := by
  funext a; match a with | ⟨0, _⟩ => rfl

/-! The same equations under the sum over `k`. -/

private theorem dot23 (y : (⟨S100000x128, .f32⟩ : BufTy).Contents (Elt Ideal)) (W : (⟨S128x128, .f32⟩ : BufTy).Contents (Elt Ideal))
    (r : Fin 100000) (q : Fin 128) :
    ∑ k : Fin 128, y (lidx_main_v23 (ix2 r q) k) * W (ridx_main_v23 (ix2 r q) k) = ∑ k : Fin 128, y (ix2 r k) * W (ix2 k q) :=
  Finset.sum_congr rfl fun k _ => by rw [lidx23, ridx23]
private theorem dot27 (y : (⟨S100000x128, .f32⟩ : BufTy).Contents (Elt Ideal)) (W : (⟨S128x128, .f32⟩ : BufTy).Contents (Elt Ideal))
    (r : Fin 100000) (q : Fin 128) :
    ∑ k : Fin 128, y (lidx_main_v27 (ix2 r q) k) * W (ridx_main_v27 (ix2 r q) k) = ∑ k : Fin 128, y (ix2 r k) * W (ix2 k q) :=
  Finset.sum_congr rfl fun k _ => by rw [lidx27, ridx27]
private theorem dot49 (y : (⟨S100000x128, .f32⟩ : BufTy).Contents (Elt Ideal)) (W : (⟨S128x128, .f32⟩ : BufTy).Contents (Elt Ideal))
    (r : Fin 100000) (q : Fin 128) :
    ∑ k : Fin 128, y (lidx_main_v49 (ix2 r q) k) * W (ridx_main_v49 (ix2 r q) k) = ∑ k : Fin 128, y (ix2 r k) * W (ix2 k q) :=
  Finset.sum_congr rfl fun k _ => by rw [lidx49, ridx49]
private theorem dot53 (y : (⟨S100000x128, .f32⟩ : BufTy).Contents (Elt Ideal)) (W : (⟨S128x128, .f32⟩ : BufTy).Contents (Elt Ideal))
    (r : Fin 100000) (q : Fin 128) :
    ∑ k : Fin 128, y (lidx_main_v53 (ix2 r q) k) * W (ridx_main_v53 (ix2 r q) k) = ∑ k : Fin 128, y (ix2 r k) * W (ix2 k q) :=
  Finset.sum_congr rfl fun k _ => by rw [lidx53, ridx53]
private theorem dot56 (y : (⟨S100000x128, .f32⟩ : BufTy).Contents (Elt Ideal)) (W : (⟨S128x1, .f32⟩ : BufTy).Contents (Elt Ideal))
    (r : Fin 100000) :
    ∑ k : Fin 128, y (lidx_main_v56 (ix2 r (0 : Fin 1)) k) * W (ridx_main_v56 (ix2 r (0 : Fin 1)) k)
      = ∑ k : Fin 128, y (ix2 r k) * W (ix2 k (0 : Fin 1)) :=
  Finset.sum_congr rfl fun k _ => by rw [lidx56, ridx56]
private theorem dot60 (y : (⟨S100000x128, .f32⟩ : BufTy).Contents (Elt Ideal)) (W : (⟨S128x1, .f32⟩ : BufTy).Contents (Elt Ideal))
    (r : Fin 100000) :
    ∑ k : Fin 128, y (lidx_main_v60 (ix2 r (0 : Fin 1)) k) * W (ridx_main_v60 (ix2 r (0 : Fin 1)) k)
      = ∑ k : Fin 128, y (ix2 r k) * W (ix2 k (0 : Fin 1)) :=
  Finset.sum_congr rfl fun k _ => by rw [lidx60, ridx60]

/-! ## The two means over in-neighbours

The program's chain of operations from the edge list to the quotient is, name by name, the shared host stage: the
same slices of the edge list, the same wrapped start indices, the same gather and scatter-add, the same clamped count
stretched along the features. Nothing is computed: both sides unfold to one term. -/

/-- The first layer's aggregated operand is the mean over in-neighbours of the node features. -/
theorem mean1 : val_main_v22 (F := Ideal) x0 x1 = nbrMean x0 x1 := by
  unfold val_main_v22 val_main_v13 val_main_v21 val_main_v20 val_main_v19 val_main_v17 val_main_v18 val_main_v15
    val_main_v16 val_main_v14 val_main_v11 val_main_v12 val_main_v10 val_main_v9 val_main_v8 val_main_v5 val_main_v7
    val_main_v4 val_main_v6 val_main_v3 val_main_v2 val_main_v1 val_main_v0 val_main_c val_main_c_0 val_main_cst
    val_main_cst_1 val_main_cst_2 val_main_cst_3
    nbrMean nbrSum degClamped srcIdx dstIdx srcRow dstRow
  rfl

/-- At node `r`, feature `q`, the first layer is the dense stage: the program adds the bias between the two products,
    the dense stage after both. -/
private theorem layer1_at (r : Fin 100000) (q : Fin 128) :
    val_main_v29 (F := Ideal) x0 x1 x2 x3 x4 (ix2 r q)
      = Cert.Sage.denseAt (val_main_v22 (F := Ideal) x0 x1) x0 x2 x3 x4 r q := by
  unfold Cert.Sage.denseAt
  rw [val_main_v29_apply, val_main_v28_apply, val_main_v26_apply, val_main_v23_apply, val_main_v25_apply,
    val_main_v24_apply, val_main_v27_apply, val_main_call0_v0_apply, val_main_call0_cst_apply,
    dot23, dot27, bias25,
    Ideal.maximumf_def, Ideal.addf_def, Ideal.addf_def, Ideal.ofBits_def, Cert.Sage.add_bias_mid]

/-- The first layer is the dense stage of that mean and the node features. -/
theorem layer1 : val_main_v29 (F := Ideal) x0 x1 x2 x3 x4 = Cert.Sage.dense (val_main_v22 (F := Ideal) x0 x1) x0 x2 x3 x4 := by
  funext i
  obtain ⟨r, q, rfl⟩ : ∃ (r : Fin 100000) (q : Fin 128), i = ix2 r q := ⟨i 0, i 1, eq_ix2 i⟩
  rw [Cert.Sage.dense_ix2]
  exact layer1_at x0 x1 x2 x3 x4 r q

/-- The second layer's aggregated operand is the mean over in-neighbours of the first layer's output. -/
theorem mean2 : val_main_v48 (F := Ideal) x0 x1 x2 x3 x4 = nbrMean (val_main_v29 (F := Ideal) x0 x1 x2 x3 x4) x1 := by
  unfold val_main_v48 val_main_v39 val_main_v47 val_main_v46 val_main_v45 val_main_v43 val_main_v44 val_main_v41
    val_main_v42 val_main_v40 val_main_v37 val_main_v38 val_main_v36 val_main_v35 val_main_v34 val_main_v31 val_main_v33
    val_main_v30 val_main_v32 val_main_v3 val_main_v2 val_main_v1 val_main_v0 val_main_c_4 val_main_c_5 val_main_cst_6
    val_main_cst_7 val_main_cst_8 val_main_cst_9
    nbrMean nbrSum degClamped srcIdx dstIdx srcRow dstRow
  rfl

/-- At node `r`, feature `q`, the second layer is the dense stage, by the same exchange of summands. -/
private theorem layer2_at (r : Fin 100000) (q : Fin 128) :
    val_main_v55 (F := Ideal) x0 x1 x2 x3 x4 x5 x6 x7 (ix2 r q)
      = Cert.Sage.denseAt (val_main_v48 (F := Ideal) x0 x1 x2 x3 x4) (val_main_v29 (F := Ideal) x0 x1 x2 x3 x4) x5 x6 x7 r q := by
  unfold Cert.Sage.denseAt
  rw [val_main_v55_apply, val_main_v54_apply, val_main_v52_apply, val_main_v49_apply, val_main_v51_apply,
    val_main_v50_apply, val_main_v53_apply, val_main_call1_v0_apply, val_main_call1_cst_apply,
    dot49, dot53, bias51,
    Ideal.maximumf_def, Ideal.addf_def, Ideal.addf_def, Ideal.ofBits_def, Cert.Sage.add_bias_mid]

/-- The second layer is the dense stage of that mean and the first layer's output. -/
theorem layer2 : val_main_v55 (F := Ideal) x0 x1 x2 x3 x4 x5 x6 x7
    = Cert.Sage.dense (val_main_v48 (F := Ideal) x0 x1 x2 x3 x4) (val_main_v29 (F := Ideal) x0 x1 x2 x3 x4) x5 x6 x7 := by
  funext i
  obtain ⟨r, q, rfl⟩ : ∃ (r : Fin 100000) (q : Fin 128), i = ix2 r q := ⟨i 0, i 1, eq_ix2 i⟩
  rw [Cert.Sage.dense_ix2]
  exact layer2_at x0 x1 x2 x3 x4 x5 x6 x7 r q

/-! ## The two results -/

/-- At node `r` the prediction head of the program is the specification's: one product with a one-column weight and
    the one bias. -/
private theorem pred_at (r : Fin 100000) :
    val_main_v59 (F := Ideal) x0 x1 x2 x3 x4 x5 x6 x7 x8 x9 (ix2 r (0 : Fin 1))
      = Cert.Sage.predAt (val_main_v55 (F := Ideal) x0 x1 x2 x3 x4 x5 x6 x7) x8 x9 r := by
  unfold Cert.Sage.predAt
  rw [val_main_v59_apply, val_main_v56_apply, val_main_v58_apply, val_main_v57_apply, dot56, bias58, Ideal.addf_def]

/-- At node `r` the difficulty head, before its gate, likewise. -/
private theorem diff_at (r : Fin 100000) :
    val_main_v63 (F := Ideal) x0 x1 x2 x3 x4 x5 x6 x7 x10 x11 (ix2 r (0 : Fin 1))
      = Cert.Sage.predAt (val_main_v55 (F := Ideal) x0 x1 x2 x3 x4 x5 x6 x7) x10 x11 r := by
  unfold Cert.Sage.predAt
  rw [val_main_v63_apply, val_main_v60_apply, val_main_v62_apply, val_main_v61_apply, dot60, bias62, Ideal.addf_def]

/-- The program spells the gate as one over one plus the exponential of the negated head, with the f32 word of one:
    that expression is the logistic function by definition. -/
private theorem gate_at (r : Fin 100000) :
    val_main_v69 (F := Ideal) x0 x1 x2 x3 x4 x5 x6 x7 x10 x11 (ix2 r (0 : Fin 1))
      = Ideal.logistic (Cert.Sage.predAt (val_main_v55 (F := Ideal) x0 x1 x2 x3 x4 x5 x6 x7) x10 x11 r) := by
  rw [val_main_v69_apply, val_main_v68_apply, val_main_cst_11_apply, val_main_v67_apply, val_main_v66_apply,
    val_main_cst_10_apply, val_main_v65_apply, val_main_v64_apply, diff_at,
    Ideal.hostDivf_def, Ideal.addf_def, Ideal.hostUnary_exp_def, Ideal.hostNegf_def, Ideal.negf_def, Ideal.ofBits_def,
    Ideal.ofBits_one_f32]
  rfl

/-- The first result: the prediction minus the gated difficulty. -/
theorem out0 : val_main_v70 (F := Ideal) x0 x1 x2 x3 x4 x5 x6 x7 x8 x9 x10 x11
    = Cert.Sage.outSub (val_main_v55 (F := Ideal) x0 x1 x2 x3 x4 x5 x6 x7) x8 x9 x10 x11 := by
  funext i
  obtain ⟨r, c, rfl⟩ : ∃ (r : Fin 100000) (c : Fin 1), i = ix2 r c := ⟨i 0, i 1, eq_ix2 i⟩
  obtain rfl : c = 0 := Subsingleton.elim _ _
  rw [val_main_v70_apply, pred_at, gate_at, Ideal.subf_def]
  rfl

/-- The second result: the prediction plus the gated difficulty. -/
theorem out1 : val_main_v71 (F := Ideal) x0 x1 x2 x3 x4 x5 x6 x7 x8 x9 x10 x11
    = Cert.Sage.outAdd (val_main_v55 (F := Ideal) x0 x1 x2 x3 x4 x5 x6 x7) x8 x9 x10 x11 := by
  funext i
  obtain ⟨r, c, rfl⟩ : ∃ (r : Fin 100000) (c : Fin 1), i = ix2 r c := ⟨i 0, i 1, eq_ix2 i⟩
  obtain rfl : c = 0 := Subsingleton.elim _ _
  rw [val_main_v71_apply, pred_at, gate_at, Ideal.addf_def]
  rfl

end Cert.ReferenceIdeal.Layers

end
-- ==== Proof.RefValue.lean ====
/-
  The reference program, read end to end: its two results are the prediction minus and plus the gated difficulty of
  the second layer's output, each layer the dense stage of the mean over in-neighbours of its input and that input.
-/
import proofs.«159413_j55602646614393_1_alg».proof.Proof.RefBridge
import proofs.«159413_j55602646614393_1_alg».proof.Proof.Bridge

set_option maxRecDepth 16384

noncomputable section

namespace Cert.ReferenceIdeal.Net

open Cert.ReferenceIdeal Cert.ReferenceIdeal.Gen Cert.ReferenceIdeal.Read Cert.ReferenceIdeal.Layers
open Idealize.ShloMosaic Idealize.ShloMosaic.TcCoe Idealize.SL.Sem

variable (m : (ℓ : Loc nD τ sig) → Buf (Elt Ideal) ℓ)

/-- The second layer's output as a function of the launch arguments. -/
abbrev hid2 (c : Dev nD) : FVec Ideal Cert.Sage.Nodes .f32 :=
  Cert.Bridge.hidden2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The first result's term: the prediction minus the gated difficulty of the second layer's output. -/
theorem result0 (c : Dev nD) : Cert.ReferenceIdeal.Value.res_main_v70 (F := Ideal) m c
    = Cert.Bridge.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.Bridge.out0
  rw [val_main_v70_eq, out0, layer2, mean2, layer1, mean1]

/-- The second result's term: the prediction plus the gated difficulty. -/
theorem result1 (c : Dev nD) : Cert.ReferenceIdeal.Value.res_main_v71 (F := Ideal) m c
    = Cert.Bridge.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.Bridge.out1
  rw [val_main_v71_eq, out1, layer2, mean2, layer1, mean1]

end Cert.ReferenceIdeal.Net

end
-- ==== Proof.lean ====
/-
  The certificate of a two-layer mean-aggregation graph network against its plain reference, over the extended reals.

  Both programs gather every edge's source row, add the rows up at the edges' destinations and divide by the
  in-degree clamped below by one; the kernel's program multiplies by the reciprocal where the reference divides, which
  is the same number because the divisor is at least one. Each layer then is one dense stage — the mean through one
  weight matrix, the layer's input through another, a bias, a clamp at zero — which the kernel's program computes in two
  pipelines over 20 blocks of 5000 nodes and the reference in whole-array operations; the three summands come in a
  different order, which addition of extended reals does not see. The kernel's program widens its two one-column heads
  with zero columns and keeps the first column of each result, which is the one-column head itself; its logistic gate is
  by definition the reference's 1 / (1 + exp (−z)). No step needs the inputs finite.

  The frames of the two kernel programs are their generated frame certificates; the reference's frame is its run with
  the results dropped; the idealization rewrote nothing, so there is nothing to preserve.
-/
import proofs.«159413_j55602646614393_1_alg».proof.Defs
import proofs.«159413_j55602646614393_1_alg».proof.Proof.Gen.Kernel
import proofs.«159413_j55602646614393_1_alg».proof.Proof.Gen.Kernel.Frame
import proofs.«159413_j55602646614393_1_alg».proof.Proof.Gen.KernelIdeal
import proofs.«159413_j55602646614393_1_alg».proof.Proof.Gen.KernelIdeal.Frame
import proofs.«159413_j55602646614393_1_alg».proof.Proof.Gen.ReferenceIdeal
import proofs.«159413_j55602646614393_1_alg».proof.Proof.Gen.ReferenceIdeal.Run
import proofs.«159413_j55602646614393_1_alg».proof.Proof.Gen.Pre_finite_inputs
import proofs.«159413_j55602646614393_1_alg».proof.Proof.KernelValue
import proofs.«159413_j55602646614393_1_alg».proof.Proof.RefValue
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the twelve arguments both programs end with the prediction minus and plus the gated
    difficulty of the second layer's output: one function of the arguments. -/
theorem algebraic : Cert.algebraic_KernelIdeal_ReferenceIdeal := by
  intro m ρ m' ρ' _ hagree
  refine ⟨_, _, Cert.KernelIdeal.Net.run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11⟩ := hagree c
  refine ⟨(h c).1.trans ?_, (h c).2.1.trans ?_, (h c).2.2⟩
  · rw [Cert.ReferenceIdeal.Net.result0, h0, h1, h2, h3, h4, h5, h6, h7, h8, h9, h10, h11]
  · rw [Cert.ReferenceIdeal.Net.result1, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
